-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S3072x10240 : S_.BroadcastsInDim S3072x10240 (![] : Fin 0 → Fin S3072x10240.rank)
  reducesTo_S3072x10240_S_d0_1 : S3072x10240.ReducesTo [0, 1] S_
  bcast_S_S10240 : S_.BroadcastsInDim S10240 (![] : Fin 0 → Fin S10240.rank)
  reducesTo_S10240_S_d0 : S10240.ReducesTo [0] S_

variable [Facts]

def fn_part1 {F : FTy → Type} [FloatOps F] (main_arg4 : FVec F S10240 .f32) (main_v13 : IVec S_ 1) (main_v16 : IVec S3072x10240 1) : IVec S_ 1 :=
  let main_c_5 : IVec S_ 1 := constantI S_ 1 1#1
  let main_v17 : IVec S_ 1 := (fun x v => Host.reduce IntOp.andi x v reducesTo_S3072x10240_S_d0_1 h_S_) main_v16 main_c_5
  let main_v18 : IVec S_ 1 := andi main_v13 main_v17
  let main_v19 : FVec F S10240 .f32 := Host.absf main_arg4
  let main_cst_6 : FVec F S_ .f32 := constant S_ .f32 0x7F800000#32
  let main_v20 : FVec F S10240 .f32 := broadcastInDim S10240 ![] bcast_S_S10240 main_cst_6
  let main_v21 : IVec S10240 1 := cmpf .olt main_v19 main_v20
  let main_c_7 : IVec S_ 1 := constantI S_ 1 1#1
  let main_v22 : IVec S_ 1 := (fun x v => Host.reduce IntOp.andi x v reducesTo_S10240_S_d0 h_S_) main_v21 main_c_7
  let main_v23 : IVec S_ 1 := andi main_v18 main_v22
  main_v23

def fn {F : FTy → Type} [FloatOps F] (main_arg0 : FVec F S4096x1024 .f32) (main_arg1 : FVec F S4096x2048 .f32) (main_arg2 : FVec F S4096x2048 .f32) (main_arg3 : FVec F S3072x10240 .f32) (main_arg4 : FVec F S10240 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S3072x10240 .f32 := Host.absf main_arg3
  let main_cst_4 : FVec F S_ .f32 := constant S_ .f32 0x7F800000#32
  let main_v15 : FVec F S3072x10240 .f32 := broadcastInDim S3072x10240 ![] bcast_S_S3072x10240 main_cst_4
  let main_v16 : IVec S3072x10240 1 := cmpf .olt main_v14 main_v15
  fn_part1 (F := F) main_arg4 main_v13 main_v16
-- ==== Kernel.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S4096x3072 : Shape := ⟨2, ![4096, 3072]⟩
abbrev S1x10240 : Shape := ⟨2, ![1, 10240]⟩
abbrev S256x3072 : Shape := ⟨2, ![256, 3072]⟩
abbrev S3072x256 : Shape := ⟨2, ![3072, 256]⟩
abbrev S1x256 : Shape := ⟨2, ![1, 256]⟩
abbrev S256x256 : Shape := ⟨2, ![256, 256]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x10240, .f32⟩
  | .hbm, ⟨4, _⟩ => ⟨S10240, .f32⟩
  | .hbm, ⟨5, _⟩ => ⟨S4096x3072, .f32⟩
  | .hbm, ⟨6, _⟩ => ⟨S1x10240, .f32⟩
  | .hbm, ⟨7, _⟩ => ⟨S4096x2048, .f32⟩
  | .hbm, ⟨8, _⟩ => ⟨S4096x2048, .f32⟩
  | .local _ .vmem, ⟨0, _⟩ => ⟨S256x3072, .f32⟩
  | .local _ .vmem, ⟨1, _⟩ => ⟨S256x3072, .f32⟩
  | .local _ .vmem, ⟨2, _⟩ => ⟨S3072x256, .f32⟩
  | .local _ .vmem, ⟨3, _⟩ => ⟨S3072x256, .f32⟩
  | .local _ .vmem, ⟨4, _⟩ => ⟨S3072x256, .f32⟩
  | .local _ .vmem, ⟨5, _⟩ => ⟨S3072x256, .f32⟩
  | .local _ .vmem, ⟨6, _⟩ => ⟨S3072x256, .f32⟩
  | .local _ .vmem, ⟨7, _⟩ => ⟨S3072x256, .f32⟩
  | .local _ .vmem, ⟨8, _⟩ => ⟨S3072x256, .f32⟩
  | .local _ .vmem, ⟨9, _⟩ => ⟨S3072x256, .f32⟩
  | .local _ .vmem, ⟨10, _⟩ => ⟨S3072x256, .f32⟩
  | .local _ .vmem, ⟨11, _⟩ => ⟨S3072x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3072x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3072x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  concatenates_S4096x1024_S4096x2048_S4096x3072_d1 : Shape.Concatenates [S4096x1024, S4096x2048] S4096x3072 1
  shapeCasts_S10240_S1x10240 : S10240.ShapeCasts S1x10240
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  bitsLt_bf16_f32 : FTy.bits .bf16 < FTy.bits .f32
  inb_S3072x256_S3072x256_0_0 : ∀ a, (![0, 0] : Fin 2 → Nat) a + S3072x256.size a ≤ S3072x256.size a
  h_S3072x256 : 0 < S3072x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x3072_S3072x256_S256x256_1_0_0_1_n_n_wf : DotDims.WF S256x3072 S3072x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .f32 = 32 ∨ (Rect.block (s := S4096x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x10240.size a
  hwx0_1 : ∀ i : grid0.Coords, EltTy.bits .f32 = 32 ∨ (Rect.block (s := S3072x10240) S3072x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x256.size a ≤ S3072x10240.size a
  hwx0_2 : ∀ i : grid0.Coords, EltTy.bits .f32 = 32 ∨ (Rect.block (s := S3072x10240) S3072x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x10240.size a
  hwx0_3 : ∀ i : grid0.Coords, EltTy.bits .f32 = 32 ∨ (Rect.block (s := S3072x10240) S3072x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3072x256.size a ≤ S3072x10240.size a
  hwx0_4 : ∀ i : grid0.Coords, EltTy.bits .f32 = 32 ∨ (Rect.block (s := S3072x10240) S3072x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3072x256.size a ≤ S3072x10240.size a
  hwx0_5 : ∀ i : grid0.Coords, EltTy.bits .f32 = 32 ∨ (Rect.block (s := S3072x10240) S3072x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x10240.size a
  hwx0_6 : ∀ i : grid0.Coords, EltTy.bits .f32 = 32 ∨ (Rect.block (s := S1x10240) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x10240.size a
  hwx0_7 : ∀ i : grid0.Coords, EltTy.bits .f32 = 32 ∨ (Rect.block (s := S1x10240) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x10240.size a
  hwx0_8 : ∀ i : grid0.Coords, EltTy.bits .f32 = 32 ∨ (Rect.block (s := S1x10240) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x10240.size a
  hwx0_9 : ∀ i : grid0.Coords, EltTy.bits .f32 = 32 ∨ (Rect.block (s := S1x10240) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x10240.size a
  hwx0_10 : ∀ i : grid0.Coords, EltTy.bits .f32 = 32 ∨ (Rect.block (s := S1x10240) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x2048.size a
  hwx0_11 : ∀ i : grid0.Coords, EltTy.bits .f32 = 32 ∨ (Rect.block (s := S4096x2048) S256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S4096x2048.size a
  hwx0_12 : ∀ i : grid0.Coords, EltTy.bits .f32 = 32 ∨ (Rect.block (s := S4096x2048) S256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S4096x2048.size a
  hwx0_13 : ∀ i : grid0.Coords, EltTy.bits .f32 = 32 ∨ (Rect.block (s := S4096x2048) S256x256.size (cc0_transform_13 i) (hinb0_13 i)).WholeWords (EltTy.packing .f32)

variable [Facts₀]

def dot_S256x3072_S3072x256_S256x256_1_0_0_1_n_n : DotDims S256x3072 S3072x256 S256x256 where
  lhsContracting := [1]
  rhsContracting := [0]
  lhsNonContracting := [0]
  rhsNonContracting := [1]
  lhsBatch := []
  rhsBatch := []
  wf := dot_S256x3072_S3072x256_S256x256_1_0_0_1_n_n_wf

abbrev win0_0 : Pipeline.Window sig grid0 :=
  Pipeline.Window.ofSpec (Memref.whole main_v0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3072x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3072x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S3072x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg2) S256x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_0) S256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_1) S256x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S4096x3072 : Shape := ⟨2, ![4096, 3072]⟩
abbrev S4096x10240 : Shape := ⟨2, ![4096, 10240]⟩
abbrev S1x10240 : Shape := ⟨2, ![1, 10240]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x10240, .f32⟩
  | .hbm, ⟨4, _⟩ => ⟨S10240, .f32⟩
  | .hbm, ⟨5, _⟩ => ⟨S4096x3072, .f32⟩
  | .hbm, ⟨6, _⟩ => ⟨S4096x10240, .f32⟩
  | .hbm, ⟨7, _⟩ => ⟨S1x10240, .f32⟩
  | .hbm, ⟨8, _⟩ => ⟨S4096x10240, .f32⟩
  | .hbm, ⟨9, _⟩ => ⟨S4096x10240, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  bcast_S10240_S1x10240_1 : S10240.BroadcastsInDim S1x10240 (![1] : Fin 1 → Fin S1x10240.rank)
  bcast_S1x10240_S4096x10240_0_1 : S1x10240.BroadcastsInDim S4096x10240 (![0, 1] : Fin 2 → Fin S4096x10240.rank)
  slices_S4096x10240_S4096x2048_0_0 : S4096x10240.Slices ![0, 0] S4096x2048
  slices_S4096x10240_S4096x2048_0_2048 : S4096x10240.Slices ![0, 2048] S4096x2048
  slices_S4096x10240_S4096x2048_0_4096 : S4096x10240.Slices ![0, 4096] S4096x2048
  slices_S4096x10240_S4096x2048_0_6144 : S4096x10240.Slices ![0, 6144] S4096x2048
  slices_S4096x10240_S4096x2048_0_8192 : S4096x10240.Slices ![0, 8192] S4096x2048
  bcast_S_S4096x2048 : S_.BroadcastsInDim S4096x2048 (![] : Fin 0 → Fin S4096x2048.rank)
  dot_S4096x3072_S3072x10240_S4096x10240_1_0_0_1_n_n_wf : DotDims.WF S4096x3072 S3072x10240 S4096x10240 [1] [0] [0] [1] [] []

variable [Facts₀]

def dot_S4096x3072_S3072x10240_S4096x10240_1_0_0_1_n_n : DotDims S4096x3072 S3072x10240 S4096x10240 where
  lhsContracting := [1]
  rhsContracting := [0]
  lhsNonContracting := [0]
  rhsNonContracting := [1]
  lhsBatch := []
  rhsBatch := []
  wf := dot_S4096x3072_S3072x10240_S4096x10240_1_0_0_1_n_n_wf

class Facts : Prop extends Facts₀ where

variable [Facts]
-- ==== Proof.KernelFrame.lean ====
/-
  The frame of the xLSTM-cell kernel program, for any float instance: every weakly fair execution of @main — a
  concatenation `[x | h_prev]`, a reshape of the bias to one row, then ONE pipelined kernel region over a 16 × 8 grid —
  terminates without a fault and leaves the five argument arrays as launched; and, for the value claim built on
  it, what every window's array holds at the end.

  At grid point (i, j) the body reads twelve blocks — rows 256·i … of the concatenation (all 3072 columns); for each of
  the five gates g the 3072 × 256 block of the fused weight at columns 256·(8g + j) … and the 1 × 256 block of the bias
  row at the same columns; the 256 × 256 block (i, j) of the old cell state — and stores two 256 × 256 blocks, the new
  hidden state and the new cell state, each one pure function of the twelve blocks read (`outH`, `outC`).  No input
  buffer is written, so each input buffer still holds its block when the point ends.

  The fused weight array is handed to FIVE windows and so is the reshaped bias row.  A buffer read by several
  windows cannot be held whole by each: its full share is split five ways along the share tree (`split5`) and each
  gate's window holds one part (`hsplit`); reading needs only a part, and nothing writes these arrays.
-/
import proofs.«163856_j61091614819044_1_alg».proof.Proof.Gen.Kernel.Launch
import proofs.«163856_j61091614819044_1_alg».proof.Proof.Gen.Kernel.Skeleton
import proofs.«163856_j61091614819044_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole staging buffer -/

abbrev rX : Rect S256x3072 := Rect.unit (s := S256x3072) ![0, 0] S256x3072.size inb_S256x3072_S256x3072_0_0
abbrev rW : Rect S3072x256 := Rect.unit (s := S3072x256) ![0, 0] S3072x256.size inb_S3072x256_S3072x256_0_0
abbrev rB : Rect S1x256 := Rect.unit (s := S1x256) ![0, 0] S1x256.size inb_S1x256_S1x256_0_0
abbrev rO : Rect S256x256 := Rect.unit (s := S256x256) ![0, 0] S256x256.size inb_S256x256_S256x256_0_0

/-- The new cell-state block one grid point stores, from the blocks it loads. -/
def outC (x0 : Vec F S256x3072 .f32) (w1 w2 w3 w4 w5 : Vec F S3072x256 .f32) (b1 b2 b3 b4 b5 : Vec F S1x256 .f32) (cp : Vec F S256x256 .f32) : Vec F S256x256 .f32 :=
  View.canon [⟨rO, k0_pay1 (k0_pay4 (View.ld x0 rX) (View.ld w1 rW) (View.ld b1 rB)) (k0_pay5 (View.ld x0 rX) (View.ld w2 rW) (View.ld b2 rB))
    (k0_pay6 (View.ld x0 rX) (View.ld w3 rW) (View.ld b3 rB)) (View.ld cp rO)⟩]

/-- The new hidden-state block one grid point stores, from the blocks it loads. -/
def outH (x0 : Vec F S256x3072 .f32) (w1 w2 w3 w4 w5 : Vec F S3072x256 .f32) (b1 b2 b3 b4 b5 : Vec F S1x256 .f32) (cp : Vec F S256x256 .f32) : Vec F S256x256 .f32 :=
  View.canon [⟨rO, k0_pay2 (k0_pay3 (View.ld x0 rX)) (k0_pay4 (View.ld x0 rX) (View.ld w1 rW) (View.ld b1 rB)) (k0_pay5 (View.ld x0 rX) (View.ld w2 rW) (View.ld b2 rB))
    (k0_pay6 (View.ld x0 rX) (View.ld w3 rW) (View.ld b3 rB)) (k0_pay7 (View.ld x0 rX) (View.ld w4 rW) (View.ld b4 rB)) (k0_pay8 (View.ld w5 rW))
    (constant S256x256 .f32 0x00000000#32) (View.ld b5 rB) (View.ld cp rO)⟩]

/-- One store of the whole block covers the buffer. -/
theorem coverO (p0 : Vec F S256x256 .f32) (y : S256x256.Idx) :
    ∃ pc ∈ ([⟨rO, p0⟩] : List (View.Piece (Elt F) S256x256 .f32)), y ∈ pc.1.set :=
  View.cover_of_tiled [⟨rO, p0⟩] S256x256.size (by rfl) y

set_option maxHeartbeats 4000000 in
/-- The body on whole staging buffers: the twelve inputs are read and left as they were, the two outputs end at
    the stored blocks. -/
theorem sound_kernel (c : Dev nD) (E : Set ℕ) (i : grid0.Coords) (a0 : Memref sig .tc .vmem S256x3072 .f32) (ha0 : a0.IsWhole) (a1 : Memref sig .tc .vmem S3072x256 .f32) (ha1 : a1.IsWhole) (a2 : Memref sig .tc .vmem S3072x256 .f32) (ha2 : a2.IsWhole) (a3 : Memref sig .tc .vmem S3072x256 .f32) (ha3 : a3.IsWhole) (a4 : Memref sig .tc .vmem S3072x256 .f32) (ha4 : a4.IsWhole) (a5 : Memref sig .tc .vmem S3072x256 .f32) (ha5 : a5.IsWhole) (a6 : Memref sig .tc .vmem S1x256 .f32) (ha6 : a6.IsWhole) (a7 : Memref sig .tc .vmem S1x256 .f32) (ha7 : a7.IsWhole) (a8 : Memref sig .tc .vmem S1x256 .f32) (ha8 : a8.IsWhole) (a9 : Memref sig .tc .vmem S1x256 .f32) (ha9 : a9.IsWhole) (a10 : Memref sig .tc .vmem S1x256 .f32) (ha10 : a10.IsWhole) (a11 : Memref sig .tc .vmem S256x256 .f32) (ha11 : a11.IsWhole) (a12 : Memref sig .tc .vmem S256x256 .f32) (ha12 : a12.IsWhole) (a13 : Memref sig .tc .vmem S256x256 .f32) (ha13 : a13.IsWhole)
    (x0 : Vec F S256x3072 .f32) (w1 w2 w3 w4 w5 : Vec F S3072x256 .f32) (b1 b2 b3 b4 b5 : Vec F S1x256 .f32) (cp : Vec F S256x256 .f32) (K : PUnit → sProp 𝕄) :
    iprop(owns (c : Thread nD τ) a0 fullShare x0
        ∗ owns (c : Thread nD τ) a1 fullShare w1 ∗ owns (c : Thread nD τ) a2 fullShare w2 ∗ owns (c : Thread nD τ) a3 fullShare w3
        ∗ owns (c : Thread nD τ) a4 fullShare w4 ∗ owns (c : Thread nD τ) a5 fullShare w5
        ∗ owns (c : Thread nD τ) a6 fullShare b1 ∗ owns (c : Thread nD τ) a7 fullShare b2 ∗ owns (c : Thread nD τ) a8 fullShare b3
        ∗ owns (c : Thread nD τ) a9 fullShare b4 ∗ owns (c : Thread nD τ) a10 fullShare b5
        ∗ owns (c : Thread nD τ) a11 fullShare cp
        ∗ (∃ d, owns (c : Thread nD τ) a12 fullShare d) ∗ (∃ d, owns (c : Thread nD τ) a13 fullShare d)
        ∗ (iprop(owns (c : Thread nD τ) a0 fullShare x0
            ∗ owns (c : Thread nD τ) a1 fullShare w1 ∗ owns (c : Thread nD τ) a2 fullShare w2 ∗ owns (c : Thread nD τ) a3 fullShare w3
            ∗ owns (c : Thread nD τ) a4 fullShare w4 ∗ owns (c : Thread nD τ) a5 fullShare w5
            ∗ owns (c : Thread nD τ) a6 fullShare b1 ∗ owns (c : Thread nD τ) a7 fullShare b2 ∗ owns (c : Thread nD τ) a8 fullShare b3
            ∗ owns (c : Thread nD τ) a9 fullShare b4 ∗ owns (c : Thread nD τ) a10 fullShare b5
            ∗ owns (c : Thread nD τ) a11 fullShare cp
            ∗ owns (c : Thread nD τ) a12 fullShare (outH x0 w1 w2 w3 w4 w5 b1 b2 b3 b4 b5 cp)
            ∗ owns (c : Thread nD τ) a13 fullShare (outC x0 w1 w2 w3 w4 w5 b1 b2 b3 b4 b5 cp)) -∗ K ⟨⟩))
      ⊢ wp frame (wpE (defs₀ (F := F)) Variants.none c none) E
          (cc0__xlstm_kernel i a0 ha0 a1 ha1 a2 ha2 a3 ha3 a4 ha4 a5 ha5 a6 ha6 a7 ha7 a8 ha8 a9 ha9 a10 ha10 a11 ha11 a12 ha12 a13 ha13) K := by
  simp only [cc0__xlstm_kernel_eq_skeleton]; unfold cc0__xlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (coverO _)
  · iexists _; isplitr
    swap; · iexact H13
    ipureintro
    try dsimp only
    exact View.read_writes_eq_canon _ _ _ (coverO _)

/-! ## @main up to the region: a concatenation and a reshape, then the one kernel region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose block the body leaves in place holds that block at every point, fetched there or not
    (an unfetched point has the block index of the point before). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Per core: the arrays as the region finds them; after the body each input buffer still at its block and the two
    outputs at the stored blocks; between points only the scoped rest; the fused weight array is read by five
    windows and so is the reshaped bias: each of the five holds one part of a five-way split of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare.left
    | ⟨7, _⟩ => fullShare.right.left
    | ⟨8, _⟩ => fullShare.right.right.left
    | ⟨9, _⟩ => fullShare.right.right.right.left
    | ⟨10, _⟩ => fullShare.right.right.right.right
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The launch: how the full shares of the arrays are dealt among the windows -/

/-- The distinct buffers behind the fourteen windows' arrays are six. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg3) ↦{fullShare} V' main_arg3)
          ∗ (((c : Thread nD τ).loc main_v1) ↦{fullShare} V' main_v1) ∗ (((c : Thread nD τ).loc main_arg2) ↦{fullShare} V' main_arg2)
          ∗ (((c : Thread nD τ).loc main_v2_0) ↦{fullShare} V' main_v2_0) ∗ (((c : Thread nD τ).loc main_v2_1) ↦{fullShare} V' main_v2_1)) := by
  unfold Pipeline.arrBufs
  exact bigSep_eq_bigSepL_of_eq [main_v0, main_arg3, main_v1, main_arg2, main_v2_0, main_v2_1] (by decide) (by decide) _

/-- A buffer held whole splits into five parts along the share tree: left, right-left, right-right-left, …; every
    part holds the same contents. -/
theorem split5 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right.left} f)
        ∗ (ℓ ↦{fullShare.right.right.right.left} f) ∗ (ℓ ↦{fullShare.right.right.right.right} f)) :=
  (pointsTo_share (PosShare.mem_left_op_right fullShare)).1.trans (sep_mono .rfl
    ((pointsTo_share (PosShare.mem_left_op_right fullShare.right)).1.trans (sep_mono .rfl
      ((pointsTo_share (PosShare.mem_left_op_right fullShare.right.right)).1.trans (sep_mono .rfl
        (pointsTo_share (PosShare.mem_left_op_right fullShare.right.right.right)).1)))))

theorem share_0 (c : Dev nD) : (dats m 0 c).share 0 = fullShare := rfl
theorem share_1 (c : Dev nD) : (dats m 0 c).share 1 = fullShare.left := rfl
theorem share_2 (c : Dev nD) : (dats m 0 c).share 2 = fullShare.right.left := rfl
theorem share_3 (c : Dev nD) : (dats m 0 c).share 3 = fullShare.right.right.left := rfl
theorem share_4 (c : Dev nD) : (dats m 0 c).share 4 = fullShare.right.right.right.left := rfl
theorem share_5 (c : Dev nD) : (dats m 0 c).share 5 = fullShare.right.right.right.right := rfl
theorem share_6 (c : Dev nD) : (dats m 0 c).share 6 = fullShare.left := rfl
theorem share_7 (c : Dev nD) : (dats m 0 c).share 7 = fullShare.right.left := rfl
theorem share_8 (c : Dev nD) : (dats m 0 c).share 8 = fullShare.right.right.left := rfl
theorem share_9 (c : Dev nD) : (dats m 0 c).share 9 = fullShare.right.right.right.left := rfl
theorem share_10 (c : Dev nD) : (dats m 0 c).share 10 = fullShare.right.right.right.right := rfl
theorem share_11 (c : Dev nD) : (dats m 0 c).share 11 = fullShare := rfl
theorem share_12 (c : Dev nD) : (dats m 0 c).share 12 = fullShare := rfl
theorem share_13 (c : Dev nD) : (dats m 0 c).share 13 = fullShare := rfl

set_option maxHeartbeats 1000000 in
/-- At any contents `V'` of the buffers: each window holds its array at its share — the weight array's and the bias
    array's full shares are each split five ways among the five gate windows that read them. -/
theorem arrays_of (c : Dev nD) (V' : (b : Ref sig .tc) → Buf (Elt F) ((c : Thread nD τ).loc b))
    (G : (w : Fin cfg0.W) → Buf (Elt F) ((cfg0.win w).arr.view.loc (c.tc : Thread nD τ))) (hG : ∀ w, G w = V' (Pipeline.arrRef spec0 w)) :
    (Pipeline.arrBufs (Ix := Unit) (Name := ℕ) (U := UR sig nD τ) (Lvl := ℕ) spec0 c V' : sProp 𝕄) ⊢ (dats m 0 c).arrays G := by
  rw [arrBufs_eq]
  unfold Dat.arrays
  rw [bigSep_W0]
  simp only [hG]
  rw [share_0, share_1, share_2, share_3, share_4, share_5, share_6, share_7, share_8, share_9, share_10, share_11, share_12, share_13]
  rw [(arr_whole0 0).set_eq_univ, (arr_whole0 1).set_eq_univ, (arr_whole0 6).set_eq_univ, (arr_whole0 11).set_eq_univ, (arr_whole0 12).set_eq_univ, (arr_whole0 13).set_eq_univ]
  iintro ⟨Hv0, Ha3, Hv1, Ha2, Ho0, Ho1⟩
  ihave Hs := (split5 (V' main_arg3)) $$ Ha3
  icases Hs with ⟨H1, H2, H3, H4, H5⟩
  ihave Hs := (split5 (V' main_v1)) $$ Hv1
  icases Hs with ⟨H6, H7, H8, H9, H10⟩
  isplitl [Hv0]; · iexact Hv0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ha2]; · iexact Ha2
  isplitl [Ho0]; · iexact Ho0
  iexact Ho1

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of m c (V m c) _ (fun w => A_eq m c w)

/-! ## The run -/

set_option backward.isDefEq.respectTransparency.types false in
/-- Every weakly fair execution of @main terminates; at the end every window's array holds what the write-backs
    leave of the proof data, and every other unscoped buffer what the region found. -/
theorem run_main : θ_run defs (onTc (τ := τ) (main (F := F))) (s₀ m ρ)
    (fun r => ∀ c : Dev nD, (∀ w, r.2.mem (((cfgs 0).spec w).arr.view.loc (c.tc : Thread nD τ)) = (dats m 0 c).arrAt w (cfgs 0).N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Hand.run_main' depends on axioms: [propext, Classical.choice, Quot.sound] -/
#guard_msgs in #print axioms run_main

/-- The frame: the run ends with the five argument arrays as launched — `x` and `h_prev` and `b` are staged by no
    window and neither host operation writes them; `c_prev` and `W` are input windows' arrays, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 11).trans (((dats m 0 c).arrAt_in 11 rfl _).trans ((A_eq m c 11).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.Kernel.Hand

end
-- ==== Proof.KernelIdealFrame.lean ====
/-
  The frame of the xLSTM-cell kernel program, for any float instance: every weakly fair execution of @main — a
  concatenation `[x | h_prev]`, a reshape of the bias to one row, then ONE pipelined kernel region over a 16 × 8 grid —
  terminates without a fault and leaves the five argument arrays as launched; and, for the value claim built on
  it, what every window's array holds at the end.

  At grid point (i, j) the body reads twelve blocks — rows 256·i … of the concatenation (all 3072 columns); for each of
  the five gates g the 3072 × 256 block of the fused weight at columns 256·(8g + j) … and the 1 × 256 block of the bias
  row at the same columns; the 256 × 256 block (i, j) of the old cell state — and stores two 256 × 256 blocks, the new
  hidden state and the new cell state, each one pure function of the twelve blocks read (`outH`, `outC`).  No input
  buffer is written, so each input buffer still holds its block when the point ends.

  The fused weight array is handed to FIVE windows and so is the reshaped bias row.  A buffer read by several
  windows cannot be held whole by each: its full share is split five ways along the share tree (`split5`) and each
  gate's window holds one part (`hsplit`); reading needs only a part, and nothing writes these arrays.
-/
import proofs.«163856_j61091614819044_1_alg».proof.Proof.Gen.KernelIdeal.Launch
import proofs.«163856_j61091614819044_1_alg».proof.Proof.Gen.KernelIdeal.Skeleton
import proofs.«163856_j61091614819044_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole staging buffer -/

abbrev rX : Rect S256x3072 := Rect.unit (s := S256x3072) ![0, 0] S256x3072.size inb_S256x3072_S256x3072_0_0
abbrev rW : Rect S3072x256 := Rect.unit (s := S3072x256) ![0, 0] S3072x256.size inb_S3072x256_S3072x256_0_0
abbrev rB : Rect S1x256 := Rect.unit (s := S1x256) ![0, 0] S1x256.size inb_S1x256_S1x256_0_0
abbrev rO : Rect S256x256 := Rect.unit (s := S256x256) ![0, 0] S256x256.size inb_S256x256_S256x256_0_0

/-- The new cell-state block one grid point stores, from the blocks it loads. -/
def outC (x0 : Vec F S256x3072 .f32) (w1 w2 w3 w4 w5 : Vec F S3072x256 .f32) (b1 b2 b3 b4 b5 : Vec F S1x256 .f32) (cp : Vec F S256x256 .f32) : Vec F S256x256 .f32 :=
  View.canon [⟨rO, k0_pay1 (k0_pay4 (View.ld x0 rX) (View.ld w1 rW) (View.ld b1 rB)) (k0_pay5 (View.ld x0 rX) (View.ld w2 rW) (View.ld b2 rB))
    (k0_pay6 (View.ld x0 rX) (View.ld w3 rW) (View.ld b3 rB)) (View.ld cp rO)⟩]

/-- The new hidden-state block one grid point stores, from the blocks it loads. -/
def outH (x0 : Vec F S256x3072 .f32) (w1 w2 w3 w4 w5 : Vec F S3072x256 .f32) (b1 b2 b3 b4 b5 : Vec F S1x256 .f32) (cp : Vec F S256x256 .f32) : Vec F S256x256 .f32 :=
  View.canon [⟨rO, k0_pay2 (k0_pay3 (View.ld x0 rX)) (k0_pay4 (View.ld x0 rX) (View.ld w1 rW) (View.ld b1 rB)) (k0_pay5 (View.ld x0 rX) (View.ld w2 rW) (View.ld b2 rB))
    (k0_pay6 (View.ld x0 rX) (View.ld w3 rW) (View.ld b3 rB)) (k0_pay7 (View.ld x0 rX) (View.ld w4 rW) (View.ld b4 rB)) (k0_pay8 (View.ld w5 rW))
    (constant S256x256 .f32 0x00000000#32) (View.ld b5 rB) (View.ld cp rO)⟩]

/-- One store of the whole block covers the buffer. -/
theorem coverO (p0 : Vec F S256x256 .f32) (y : S256x256.Idx) :
    ∃ pc ∈ ([⟨rO, p0⟩] : List (View.Piece (Elt F) S256x256 .f32)), y ∈ pc.1.set :=
  View.cover_of_tiled [⟨rO, p0⟩] S256x256.size (by rfl) y

set_option maxHeartbeats 4000000 in
/-- The body on whole staging buffers: the twelve inputs are read and left as they were, the two outputs end at
    the stored blocks. -/
theorem sound_kernel (c : Dev nD) (E : Set ℕ) (i : grid0.Coords) (a0 : Memref sig .tc .vmem S256x3072 .f32) (ha0 : a0.IsWhole) (a1 : Memref sig .tc .vmem S3072x256 .f32) (ha1 : a1.IsWhole) (a2 : Memref sig .tc .vmem S3072x256 .f32) (ha2 : a2.IsWhole) (a3 : Memref sig .tc .vmem S3072x256 .f32) (ha3 : a3.IsWhole) (a4 : Memref sig .tc .vmem S3072x256 .f32) (ha4 : a4.IsWhole) (a5 : Memref sig .tc .vmem S3072x256 .f32) (ha5 : a5.IsWhole) (a6 : Memref sig .tc .vmem S1x256 .f32) (ha6 : a6.IsWhole) (a7 : Memref sig .tc .vmem S1x256 .f32) (ha7 : a7.IsWhole) (a8 : Memref sig .tc .vmem S1x256 .f32) (ha8 : a8.IsWhole) (a9 : Memref sig .tc .vmem S1x256 .f32) (ha9 : a9.IsWhole) (a10 : Memref sig .tc .vmem S1x256 .f32) (ha10 : a10.IsWhole) (a11 : Memref sig .tc .vmem S256x256 .f32) (ha11 : a11.IsWhole) (a12 : Memref sig .tc .vmem S256x256 .f32) (ha12 : a12.IsWhole) (a13 : Memref sig .tc .vmem S256x256 .f32) (ha13 : a13.IsWhole)
    (x0 : Vec F S256x3072 .f32) (w1 w2 w3 w4 w5 : Vec F S3072x256 .f32) (b1 b2 b3 b4 b5 : Vec F S1x256 .f32) (cp : Vec F S256x256 .f32) (K : PUnit → sProp 𝕄) :
    iprop(owns (c : Thread nD τ) a0 fullShare x0
        ∗ owns (c : Thread nD τ) a1 fullShare w1 ∗ owns (c : Thread nD τ) a2 fullShare w2 ∗ owns (c : Thread nD τ) a3 fullShare w3
        ∗ owns (c : Thread nD τ) a4 fullShare w4 ∗ owns (c : Thread nD τ) a5 fullShare w5
        ∗ owns (c : Thread nD τ) a6 fullShare b1 ∗ owns (c : Thread nD τ) a7 fullShare b2 ∗ owns (c : Thread nD τ) a8 fullShare b3
        ∗ owns (c : Thread nD τ) a9 fullShare b4 ∗ owns (c : Thread nD τ) a10 fullShare b5
        ∗ owns (c : Thread nD τ) a11 fullShare cp
        ∗ (∃ d, owns (c : Thread nD τ) a12 fullShare d) ∗ (∃ d, owns (c : Thread nD τ) a13 fullShare d)
        ∗ (iprop(owns (c : Thread nD τ) a0 fullShare x0
            ∗ owns (c : Thread nD τ) a1 fullShare w1 ∗ owns (c : Thread nD τ) a2 fullShare w2 ∗ owns (c : Thread nD τ) a3 fullShare w3
            ∗ owns (c : Thread nD τ) a4 fullShare w4 ∗ owns (c : Thread nD τ) a5 fullShare w5
            ∗ owns (c : Thread nD τ) a6 fullShare b1 ∗ owns (c : Thread nD τ) a7 fullShare b2 ∗ owns (c : Thread nD τ) a8 fullShare b3
            ∗ owns (c : Thread nD τ) a9 fullShare b4 ∗ owns (c : Thread nD τ) a10 fullShare b5
            ∗ owns (c : Thread nD τ) a11 fullShare cp
            ∗ owns (c : Thread nD τ) a12 fullShare (outH x0 w1 w2 w3 w4 w5 b1 b2 b3 b4 b5 cp)
            ∗ owns (c : Thread nD τ) a13 fullShare (outC x0 w1 w2 w3 w4 w5 b1 b2 b3 b4 b5 cp)) -∗ K ⟨⟩))
      ⊢ wp frame (wpE (defs₀ (F := F)) Variants.none c none) E
          (cc0__xlstm_kernel i a0 ha0 a1 ha1 a2 ha2 a3 ha3 a4 ha4 a5 ha5 a6 ha6 a7 ha7 a8 ha8 a9 ha9 a10 ha10 a11 ha11 a12 ha12 a13 ha13) K := by
  simp only [cc0__xlstm_kernel_eq_skeleton]; unfold cc0__xlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (coverO _)
  · iexists _; isplitr
    swap; · iexact H13
    ipureintro
    try dsimp only
    exact View.read_writes_eq_canon _ _ _ (coverO _)

/-! ## @main up to the region: a concatenation and a reshape, then the one kernel region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose block the body leaves in place holds that block at every point, fetched there or not
    (an unfetched point has the block index of the point before). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Per core: the arrays as the region finds them; after the body each input buffer still at its block and the two
    outputs at the stored blocks; between points only the scoped rest; the fused weight array is read by five
    windows and so is the reshaped bias: each of the five holds one part of a five-way split of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare.left
    | ⟨7, _⟩ => fullShare.right.left
    | ⟨8, _⟩ => fullShare.right.right.left
    | ⟨9, _⟩ => fullShare.right.right.right.left
    | ⟨10, _⟩ => fullShare.right.right.right.right
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after_13 (c : Dev nD) (t : Fin cfg0.N) : (dats m 0 c).after 13 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The launch: how the full shares of the arrays are dealt among the windows -/

/-- The distinct buffers behind the fourteen windows' arrays are six. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_arg3) ↦{fullShare} V' main_arg3)
          ∗ (((c : Thread nD τ).loc main_v1) ↦{fullShare} V' main_v1) ∗ (((c : Thread nD τ).loc main_arg2) ↦{fullShare} V' main_arg2)
          ∗ (((c : Thread nD τ).loc main_v2_0) ↦{fullShare} V' main_v2_0) ∗ (((c : Thread nD τ).loc main_v2_1) ↦{fullShare} V' main_v2_1)) := by
  unfold Pipeline.arrBufs
  exact bigSep_eq_bigSepL_of_eq [main_v0, main_arg3, main_v1, main_arg2, main_v2_0, main_v2_1] (by decide) (by decide) _

/-- A buffer held whole splits into five parts along the share tree: left, right-left, right-right-left, …; every
    part holds the same contents. -/
theorem split5 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right.left} f)
        ∗ (ℓ ↦{fullShare.right.right.right.left} f) ∗ (ℓ ↦{fullShare.right.right.right.right} f)) :=
  (pointsTo_share (PosShare.mem_left_op_right fullShare)).1.trans (sep_mono .rfl
    ((pointsTo_share (PosShare.mem_left_op_right fullShare.right)).1.trans (sep_mono .rfl
      ((pointsTo_share (PosShare.mem_left_op_right fullShare.right.right)).1.trans (sep_mono .rfl
        (pointsTo_share (PosShare.mem_left_op_right fullShare.right.right.right)).1)))))

theorem share_0 (c : Dev nD) : (dats m 0 c).share 0 = fullShare := rfl
theorem share_1 (c : Dev nD) : (dats m 0 c).share 1 = fullShare.left := rfl
theorem share_2 (c : Dev nD) : (dats m 0 c).share 2 = fullShare.right.left := rfl
theorem share_3 (c : Dev nD) : (dats m 0 c).share 3 = fullShare.right.right.left := rfl
theorem share_4 (c : Dev nD) : (dats m 0 c).share 4 = fullShare.right.right.right.left := rfl
theorem share_5 (c : Dev nD) : (dats m 0 c).share 5 = fullShare.right.right.right.right := rfl
theorem share_6 (c : Dev nD) : (dats m 0 c).share 6 = fullShare.left := rfl
theorem share_7 (c : Dev nD) : (dats m 0 c).share 7 = fullShare.right.left := rfl
theorem share_8 (c : Dev nD) : (dats m 0 c).share 8 = fullShare.right.right.left := rfl
theorem share_9 (c : Dev nD) : (dats m 0 c).share 9 = fullShare.right.right.right.left := rfl
theorem share_10 (c : Dev nD) : (dats m 0 c).share 10 = fullShare.right.right.right.right := rfl
theorem share_11 (c : Dev nD) : (dats m 0 c).share 11 = fullShare := rfl
theorem share_12 (c : Dev nD) : (dats m 0 c).share 12 = fullShare := rfl
theorem share_13 (c : Dev nD) : (dats m 0 c).share 13 = fullShare := rfl

set_option maxHeartbeats 1000000 in
/-- At any contents `V'` of the buffers: each window holds its array at its share — the weight array's and the bias
    array's full shares are each split five ways among the five gate windows that read them. -/
theorem arrays_of (c : Dev nD) (V' : (b : Ref sig .tc) → Buf (Elt F) ((c : Thread nD τ).loc b))
    (G : (w : Fin cfg0.W) → Buf (Elt F) ((cfg0.win w).arr.view.loc (c.tc : Thread nD τ))) (hG : ∀ w, G w = V' (Pipeline.arrRef spec0 w)) :
    (Pipeline.arrBufs (Ix := Unit) (Name := ℕ) (U := UR sig nD τ) (Lvl := ℕ) spec0 c V' : sProp 𝕄) ⊢ (dats m 0 c).arrays G := by
  rw [arrBufs_eq]
  unfold Dat.arrays
  rw [bigSep_W0]
  simp only [hG]
  rw [share_0, share_1, share_2, share_3, share_4, share_5, share_6, share_7, share_8, share_9, share_10, share_11, share_12, share_13]
  rw [(arr_whole0 0).set_eq_univ, (arr_whole0 1).set_eq_univ, (arr_whole0 6).set_eq_univ, (arr_whole0 11).set_eq_univ, (arr_whole0 12).set_eq_univ, (arr_whole0 13).set_eq_univ]
  iintro ⟨Hv0, Ha3, Hv1, Ha2, Ho0, Ho1⟩
  ihave Hs := (split5 (V' main_arg3)) $$ Ha3
  icases Hs with ⟨H1, H2, H3, H4, H5⟩
  ihave Hs := (split5 (V' main_v1)) $$ Hv1
  icases Hs with ⟨H6, H7, H8, H9, H10⟩
  isplitl [Hv0]; · iexact Hv0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ha2]; · iexact Ha2
  isplitl [Ho0]; · iexact Ho0
  iexact Ho1

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of m c (V m c) _ (fun w => A_eq m c w)

/-! ## The run -/

set_option backward.isDefEq.respectTransparency.types false in
/-- Every weakly fair execution of @main terminates; at the end every window's array holds what the write-backs
    leave of the proof data, and every other unscoped buffer what the region found. -/
theorem run_main : θ_run defs (onTc (τ := τ) (main (F := F))) (s₀ m ρ)
    (fun r => ∀ c : Dev nD, (∀ w, r.2.mem (((cfgs 0).spec w).arr.view.loc (c.tc : Thread nD τ)) = (dats m 0 c).arrAt w (cfgs 0).N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Hand.run_main' depends on axioms: [propext, Classical.choice, Quot.sound] -/
#guard_msgs in #print axioms run_main

/-- The frame: the run ends with the five argument arrays as launched — `x` and `h_prev` and `b` are staged by no
    window and neither host operation writes them; `c_prev` and `W` are input windows' arrays, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 11).trans (((dats m 0 c).arrAt_in 11 rfl _).trans ((A_eq m c 11).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.KernelIdeal.Hand

end
-- ==== Proof.Spec.lean ====
/-
  The mathematics both programs compute, stated once over the extended reals, index by index.

  One step of an xLSTM cell with five fused gates.  With `comb = [x | h_prev]` (4096 × 3072), the fused weight
  `W` (3072 × 10240) and bias `b` (10240), gate `g ∈ {0,…,4}` (forget, input, candidate, output, exponential) has at
  row `p` and hidden column `q` the pre-activation

      pre g p q = Σ_k comb[p,k] · W[k, 2048·g + q]  +  b[2048·g + q].

  The new cell state is  c' = σ(pre 0)·c_prev + σ(pre 1)·tanh(pre 2),  and the new hidden state is
  h' = σ(pre 4)·exp(s) + (1 − σ(pre 4))·s  with  s = σ(pre 3)·tanh(c'),  where σ x = 1 / (1 + e^(−x)).
  The literal `1` of `1 − σ` is kept as its float word: both programs spell the same word, so it is never evaluated.
-/
import Idealize.ShloMosaic.PureOps.Ideal
import Idealize.ShloMosaic.Lib.ValueIdx

noncomputable section

namespace Cert.Xlstm

open Idealize.ShloMosaic Idealize.ShloMosaic.ValueIdx

/-- Column `q` of gate `g`'s slice of the fused 10240 columns. -/
abbrev col (g : Fin 5) (q : Fin 2048) : Fin 10240 := ⟨g.val * 2048 + q.val, by have := g.isLt; have := q.isLt; omega⟩

/-- Gate `g`'s pre-activation at row `p`, hidden column `q`: one row of `comb` against one column of `W`, plus the bias. -/
def pre (comb : FVec Ideal ⟨2, ![4096, 3072]⟩ .f32) (W : FVec Ideal ⟨2, ![3072, 10240]⟩ .f32) (b : FVec Ideal ⟨1, ![10240]⟩ .f32)
    (g : Fin 5) (p : Fin 4096) (q : Fin 2048) : EReal :=
  (∑ k : Fin 3072, comb (ix2 p k) * W (ix2 k (col g q))) + b (ix1 (col g q))

/-- The new cell state at `(p, q)`: forget gate times the old cell state plus input gate times the candidate. -/
def cellAt (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) (p : Fin 4096) (q : Fin 2048) : EReal :=
  Ideal.logistic (pre comb W b 0 p q) * cp (ix2 p q) + Ideal.logistic (pre comb W b 1 p q) * Ideal.tanh (pre comb W b 2 p q)

/-- The output-gated cell state `s = σ(pre 3)·tanh(c')` at `(p, q)`. -/
def gatedAt (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) (p : Fin 4096) (q : Fin 2048) : EReal :=
  Ideal.logistic (pre comb W b 3 p q) * Ideal.tanh (cellAt comb W b cp p q)

/-- The new hidden state at `(p, q)`: the exponential gate mixes `exp s` and `s`. -/
def hiddenAt (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) (p : Fin 4096) (q : Fin 2048) : EReal :=
  Ideal.logistic (pre comb W b 4 p q) * Ideal.exp (gatedAt comb W b cp p q)
    + (Ideal.ofBits .f32 0x3F800000#32 - Ideal.logistic (pre comb W b 4 p q)) * gatedAt comb W b cp p q

/-- The new cell state as a whole 4096 × 2048 array. -/
def cellArr (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) : FVec Ideal ⟨2, ![4096, 2048]⟩ .f32 :=
  fun i => cellAt comb W b cp (i 0) (i 1)

/-- The new hidden state as a whole 4096 × 2048 array. -/
def hiddenArr (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) : FVec Ideal ⟨2, ![4096, 2048]⟩ .f32 :=
  fun i => hiddenAt comb W b cp (i 0) (i 1)

theorem cellArr_apply (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) (p : Fin 4096) (q : Fin 2048) :
    cellArr comb W b cp (ix2 p q) = cellAt comb W b cp p q := rfl

theorem hiddenArr_apply (comb : FVec Ideal ⟨2, ![4096, 3072]⟩ .f32) (W : FVec Ideal ⟨2, ![3072, 10240]⟩ .f32) (b : FVec Ideal ⟨1, ![10240]⟩ .f32)
    (cp : FVec Ideal ⟨2, ![4096, 2048]⟩ .f32) (p : Fin 4096) (q : Fin 2048) :
    hiddenArr comb W b cp (ix2 p q) = hiddenAt comb W b cp p q := rfl

end Cert.Xlstm

end
-- ==== Proof.BlockValue.lean ====
/-
  One grid point's stored blocks, read at an index, are the specification.

  At one grid point the body holds a 256 × 3072 row block of `comb`, one 3072 × 256 column block of `W` and one 1 × 256 block
  of the bias per gate, and a 256 × 256 block of the old cell state.  Each gate's pre-activation block is the product of the
  row block with the gate's column block (into a zero accumulator) plus the bias row repeated on every row; the narrowing
  format change and a shape cast to the same shape are the identity on extended reals.  Read at `(r, j)` this is the
  specification's `pre` at row `P r` and hidden column `Q j`, whatever the row and column maps `P`, `Q` along which the
  blocks restrict the whole arrays.  The two stored blocks are pointwise in the gates' blocks, hence the specification's
  `cellAt` and `hiddenAt` at `(P r, Q j)`.
-/
import proofs.«163856_j61091614819044_1_alg».proof.Proof.Gen.KernelIdeal.Skeleton
import proofs.«163856_j61091614819044_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option synthInstance.maxSize 4096

noncomputable section

namespace Cert.KernelIdeal.BlockValue

open Cert.KernelIdeal Cert.KernelIdeal.Gen Idealize.ShloMosaic Idealize.ShloMosaic.ValueIdx

/-! ## The product's operand indices, axis by axis

The product contracts the left operand's axis 1 with the right operand's axis 0; the left operand's axis 0 is the result's
row and the right operand's axis 1 is the result's column. -/

theorem lhs_mm_0 (i : S256x256.Idx) (q : dot_S256x3072_S3072x256_S256x256_1_0_0_1_n_n.contr.Idx) :
    (dot_S256x3072_S3072x256_S256x256_1_0_0_1_n_n.lhsIdx i q 0).val = (i 0).val := by
  unfold DotDims.lhsIdx
  rw [dif_neg (show ¬(0 : Fin S256x3072.rank) ∈ dot_S256x3072_S3072x256_S256x256_1_0_0_1_n_n.lhsBatch by decide), dif_pos (show (0 : Fin S256x3072.rank) ∈ dot_S256x3072_S3072x256_S256x256_1_0_0_1_n_n.lhsNonContracting by decide)]
  rfl
theorem lhs_mm_1 (i : S256x256.Idx) (q : dot_S256x3072_S3072x256_S256x256_1_0_0_1_n_n.contr.Idx) :
    (dot_S256x3072_S3072x256_S256x256_1_0_0_1_n_n.lhsIdx i q 1).val = (q ⟨0, by decide⟩).val :=
  dot_S256x3072_S3072x256_S256x256_1_0_0_1_n_n.lhsIdx_val_of_single rfl i q
theorem rhs_mm_0 (i : S256x256.Idx) (q : dot_S256x3072_S3072x256_S256x256_1_0_0_1_n_n.contr.Idx) :
    (dot_S256x3072_S3072x256_S256x256_1_0_0_1_n_n.rhsIdx i q 0).val = (q ⟨0, by decide⟩).val :=
  dot_S256x3072_S3072x256_S256x256_1_0_0_1_n_n.rhsIdx_val_of_single rfl i q
theorem rhs_mm_1 (i : S256x256.Idx) (q : dot_S256x3072_S3072x256_S256x256_1_0_0_1_n_n.contr.Idx) :
    (dot_S256x3072_S3072x256_S256x256_1_0_0_1_n_n.rhsIdx i q 1).val = (i 1).val := by
  unfold DotDims.rhsIdx
  rw [dif_neg (show ¬(1 : Fin S3072x256.rank) ∈ dot_S256x3072_S3072x256_S256x256_1_0_0_1_n_n.rhsBatch by decide), dif_pos (show (1 : Fin S3072x256.rank) ∈ dot_S256x3072_S3072x256_S256x256_1_0_0_1_n_n.rhsNonContracting by decide)]
  rfl

/-- The product into the zero accumulator, read at `(r, j)`: row `r` of the left operand against column `j` of the right. -/
theorem mm_apply (a : FVec Ideal S256x3072 .bf16) (w : FVec Ideal S3072x256 .bf16) (r j : Fin 256) :
    matmul (F := Ideal) dot_S256x3072_S3072x256_S256x256_1_0_0_1_n_n none a w (constant S256x256 .f32 0x00000000#32) (ix2 r j)
      = ∑ k : Fin 3072, a (ix2 r k) * w (ix2 k j) := by
  refine (Ideal.matmul_constant_zero_apply dot_S256x3072_S3072x256_S256x256_1_0_0_1_n_n none a w (ix2 r j)).trans ?_
  rw [← Equiv.sum_comp (ValueIdx.contrEquiv1 dot_S256x3072_S3072x256_S256x256_1_0_0_1_n_n 3072 rfl rfl).symm]
  refine Finset.sum_congr rfl fun k _ => ?_
  have hk := ValueIdx.contrEquiv1_symm_val dot_S256x3072_S3072x256_S256x256_1_0_0_1_n_n 3072 rfl rfl k
  have el : dot_S256x3072_S3072x256_S256x256_1_0_0_1_n_n.lhsIdx (ix2 r j) ((ValueIdx.contrEquiv1 dot_S256x3072_S3072x256_S256x256_1_0_0_1_n_n 3072 rfl rfl).symm k) = ix2 r k := funext fun a => Fin.ext (by
    match a with
    | ⟨0, _⟩ => exact lhs_mm_0 _ _
    | ⟨1, _⟩ => exact (lhs_mm_1 _ _).trans hk)
  have er : dot_S256x3072_S3072x256_S256x256_1_0_0_1_n_n.rhsIdx (ix2 r j) ((ValueIdx.contrEquiv1 dot_S256x3072_S3072x256_S256x256_1_0_0_1_n_n 3072 rfl rfl).symm k) = ix2 k j := funext fun a => Fin.ext (by
    match a with
    | ⟨0, _⟩ => exact (rhs_mm_0 _ _).trans hk
    | ⟨1, _⟩ => exact rhs_mm_1 _ _)
  rw [el, er]

/-! ## One gate's pre-activation block -/

/-- One gate's pre-activation block: the row block against the gate's column block, plus the gate's bias row on every row. -/
def gateBlk (x0 : Vec Ideal S256x3072 .f32) (w : Vec Ideal S3072x256 .f32) (b : Vec Ideal S1x256 .f32) : FVec Ideal S256x256 .f32 :=
  addf (matmul dot_S256x3072_S3072x256_S256x256_1_0_0_1_n_n none (k0_pay3 (F := Ideal) x0) (truncf .bf16 w bitsLt_bf16_f32) (constant S256x256 .f32 0x00000000#32))
    (broadcastTo S256x256 (shapeCast S1x256 b shapeCasts_S1x256_S1x256) broadcasts_S1x256_S256x256)

/-- The narrowed row block reads the row block: the shape cast and the format change are the identity. -/
theorem pay3_apply (x0 : Vec Ideal S256x3072 .f32) (r : Fin 256) (k : Fin 3072) :
    k0_pay3 (F := Ideal) x0 (ix2 r k) = x0 (ix2 r k) :=
  congrFun (shapeCast_self x0 shapeCasts_S256x3072_S256x3072) (ix2 r k)

/-- A gate's block at `(r, j)` is the specification's pre-activation of that gate at `(P r, Q j)`. -/
theorem gate_apply (x0 : Vec Ideal S256x3072 .f32) (w : Vec Ideal S3072x256 .f32) (b : Vec Ideal S1x256 .f32)
    (comb : FVec Ideal ⟨2, ![4096, 3072]⟩ .f32) (W : FVec Ideal ⟨2, ![3072, 10240]⟩ .f32)
    (bvec : FVec Ideal ⟨1, ![10240]⟩ .f32)
    (P : Fin 256 → Fin 4096) (Q : Fin 256 → Fin 2048) (g : Fin 5)
    (hx : ∀ (r : Fin 256) (k : Fin 3072), x0 (ix2 r k) = comb (ix2 (P r) k))
    (hw : ∀ (k : Fin 3072) (j : Fin 256), w (ix2 k j) = W (ix2 k (Cert.Xlstm.col g (Q j))))
    (hb : ∀ (j : Fin 256), b (ix2 (0 : Fin 1) j) = bvec (ix1 (Cert.Xlstm.col g (Q j))))
    (r j : Fin 256) :
    gateBlk x0 w b (ix2 r j) = Cert.Xlstm.pre comb W bvec g (P r) (Q j) := by
  unfold gateBlk Cert.Xlstm.pre
  refine (addf_apply _ _ _).trans ?_
  refine congrArg₂ (· + ·) ?_ ?_
  · refine (mm_apply _ _ r j).trans (Finset.sum_congr rfl fun k _ => ?_)
    refine congrArg₂ (· * ·) ((pay3_apply x0 r k).trans (hx r k)) ?_
    exact (truncf_apply w bitsLt_bf16_f32 (ix2 k j)).trans (hw k j)
  · refine (broadcastTo_1b_ab_apply _ broadcasts_S1x256_S256x256 r j).trans ?_
    exact (congrFun (shapeCast_self b shapeCasts_S1x256_S1x256) (ix2 (0 : Fin 1) j)).trans (hb j)

/-! ## The two stored blocks -/

/-- The stored cell block, from the loaded blocks. -/
def cellBlk (x0 : Vec Ideal S256x3072 .f32) (w1 w2 w3 : Vec Ideal S3072x256 .f32) (b1 b2 b3 : Vec Ideal S1x256 .f32)
    (cp : Vec Ideal S256x256 .f32) : FVec Ideal S256x256 .f32 :=
  k0_pay1 (F := Ideal) (k0_pay4 x0 w1 b1) (k0_pay5 x0 w2 b2) (k0_pay6 x0 w3 b3) cp

/-- The stored hidden block, from the loaded blocks. -/
def hiddenBlk (x0 : Vec Ideal S256x3072 .f32) (w1 w2 w3 w4 w5 : Vec Ideal S3072x256 .f32) (b1 b2 b3 b4 b5 : Vec Ideal S1x256 .f32)
    (cp : Vec Ideal S256x256 .f32) : FVec Ideal S256x256 .f32 :=
  k0_pay2 (F := Ideal) (k0_pay3 x0) (k0_pay4 x0 w1 b1) (k0_pay5 x0 w2 b2) (k0_pay6 x0 w3 b3) (k0_pay7 x0 w4 b4) (k0_pay8 w5)
    (constant S256x256 .f32 0x00000000#32) b5 cp

/-- The cell block at `(r, j)`: forget gate times the old cell state plus input gate times the candidate, each gate read by
    `gate_apply`. -/
theorem cellBlk_apply (x0 : Vec Ideal S256x3072 .f32) (w1 w2 w3 : Vec Ideal S3072x256 .f32) (b1 b2 b3 : Vec Ideal S1x256 .f32)
    (cp : Vec Ideal S256x256 .f32)
    (comb : FVec Ideal ⟨2, ![4096, 3072]⟩ .f32) (W : FVec Ideal ⟨2, ![3072, 10240]⟩ .f32)
    (bvec : FVec Ideal ⟨1, ![10240]⟩ .f32) (cpA : FVec Ideal ⟨2, ![4096, 2048]⟩ .f32)
    (P : Fin 256 → Fin 4096) (Q : Fin 256 → Fin 2048)
    (hx : ∀ (r : Fin 256) (k : Fin 3072), x0 (ix2 r k) = comb (ix2 (P r) k))
    (hw1 : ∀ (k : Fin 3072) (j : Fin 256), w1 (ix2 k j) = W (ix2 k (Cert.Xlstm.col 0 (Q j))))
    (hw2 : ∀ (k : Fin 3072) (j : Fin 256), w2 (ix2 k j) = W (ix2 k (Cert.Xlstm.col 1 (Q j))))
    (hw3 : ∀ (k : Fin 3072) (j : Fin 256), w3 (ix2 k j) = W (ix2 k (Cert.Xlstm.col 2 (Q j))))
    (hb1 : ∀ (j : Fin 256), b1 (ix2 (0 : Fin 1) j) = bvec (ix1 (Cert.Xlstm.col 0 (Q j))))
    (hb2 : ∀ (j : Fin 256), b2 (ix2 (0 : Fin 1) j) = bvec (ix1 (Cert.Xlstm.col 1 (Q j))))
    (hb3 : ∀ (j : Fin 256), b3 (ix2 (0 : Fin 1) j) = bvec (ix1 (Cert.Xlstm.col 2 (Q j))))
    (hc : ∀ (r j : Fin 256), cp (ix2 r j) = cpA (ix2 (P r) (Q j)))
    (r j : Fin 256) :
    cellBlk x0 w1 w2 w3 b1 b2 b3 cp (ix2 r j) = Cert.Xlstm.cellAt comb W bvec cpA (P r) (Q j) := by
  have e1 : gateBlk x0 w1 b1 (ix2 r j) = _ := gate_apply x0 w1 b1 comb W bvec P Q 0 hx hw1 hb1 r j
  have e2 : gateBlk x0 w2 b2 (ix2 r j) = _ := gate_apply x0 w2 b2 comb W bvec P Q 1 hx hw2 hb2 r j
  have e3 : gateBlk x0 w3 b3 (ix2 r j) = _ := gate_apply x0 w3 b3 comb W bvec P Q 2 hx hw3 hb3 r j
  show Ideal.logistic (gateBlk x0 w1 b1 (ix2 r j)) * cp (ix2 r j)
      + Ideal.logistic (gateBlk x0 w2 b2 (ix2 r j)) * Ideal.tanh (gateBlk x0 w3 b3 (ix2 r j)) = _
  rw [e1, e2, e3, hc r j]
  rfl

/-- The hidden block at `(r, j)`: the exponential gate mixes `exp s` and `s`, with `s` the output gate times `tanh` of the
    cell block; the literal of `1 − σ` is the same word on both sides. -/
theorem hiddenBlk_apply (x0 : Vec Ideal S256x3072 .f32) (w1 w2 w3 w4 w5 : Vec Ideal S3072x256 .f32)
    (b1 b2 b3 b4 b5 : Vec Ideal S1x256 .f32) (cp : Vec Ideal S256x256 .f32)
    (comb : FVec Ideal ⟨2, ![4096, 3072]⟩ .f32) (W : FVec Ideal ⟨2, ![3072, 10240]⟩ .f32)
    (bvec : FVec Ideal ⟨1, ![10240]⟩ .f32) (cpA : FVec Ideal ⟨2, ![4096, 2048]⟩ .f32)
    (P : Fin 256 → Fin 4096) (Q : Fin 256 → Fin 2048)
    (hx : ∀ (r : Fin 256) (k : Fin 3072), x0 (ix2 r k) = comb (ix2 (P r) k))
    (hw1 : ∀ (k : Fin 3072) (j : Fin 256), w1 (ix2 k j) = W (ix2 k (Cert.Xlstm.col 0 (Q j))))
    (hw2 : ∀ (k : Fin 3072) (j : Fin 256), w2 (ix2 k j) = W (ix2 k (Cert.Xlstm.col 1 (Q j))))
    (hw3 : ∀ (k : Fin 3072) (j : Fin 256), w3 (ix2 k j) = W (ix2 k (Cert.Xlstm.col 2 (Q j))))
    (hw4 : ∀ (k : Fin 3072) (j : Fin 256), w4 (ix2 k j) = W (ix2 k (Cert.Xlstm.col 3 (Q j))))
    (hw5 : ∀ (k : Fin 3072) (j : Fin 256), w5 (ix2 k j) = W (ix2 k (Cert.Xlstm.col 4 (Q j))))
    (hb1 : ∀ (j : Fin 256), b1 (ix2 (0 : Fin 1) j) = bvec (ix1 (Cert.Xlstm.col 0 (Q j))))
    (hb2 : ∀ (j : Fin 256), b2 (ix2 (0 : Fin 1) j) = bvec (ix1 (Cert.Xlstm.col 1 (Q j))))
    (hb3 : ∀ (j : Fin 256), b3 (ix2 (0 : Fin 1) j) = bvec (ix1 (Cert.Xlstm.col 2 (Q j))))
    (hb4 : ∀ (j : Fin 256), b4 (ix2 (0 : Fin 1) j) = bvec (ix1 (Cert.Xlstm.col 3 (Q j))))
    (hb5 : ∀ (j : Fin 256), b5 (ix2 (0 : Fin 1) j) = bvec (ix1 (Cert.Xlstm.col 4 (Q j))))
    (hc : ∀ (r j : Fin 256), cp (ix2 r j) = cpA (ix2 (P r) (Q j)))
    (r j : Fin 256) :
    hiddenBlk x0 w1 w2 w3 w4 w5 b1 b2 b3 b4 b5 cp (ix2 r j) = Cert.Xlstm.hiddenAt comb W bvec cpA (P r) (Q j) := by
  have e4 : gateBlk x0 w4 b4 (ix2 r j) = _ := gate_apply x0 w4 b4 comb W bvec P Q 3 hx hw4 hb4 r j
  have e5 : gateBlk x0 w5 b5 (ix2 r j) = _ := gate_apply x0 w5 b5 comb W bvec P Q 4 hx hw5 hb5 r j
  have ec := cellBlk_apply x0 w1 w2 w3 b1 b2 b3 cp comb W bvec cpA P Q hx hw1 hw2 hw3 hb1 hb2 hb3 hc r j
  show Ideal.logistic (gateBlk x0 w5 b5 (ix2 r j))
        * Ideal.exp (Ideal.logistic (gateBlk x0 w4 b4 (ix2 r j)) * Ideal.tanh (cellBlk x0 w1 w2 w3 b1 b2 b3 cp (ix2 r j)))
      + (Ideal.ofBits .f32 0x3F800000#32 - Ideal.logistic (gateBlk x0 w5 b5 (ix2 r j)))
        * (Ideal.logistic (gateBlk x0 w4 b4 (ix2 r j)) * Ideal.tanh (cellBlk x0 w1 w2 w3 b1 b2 b3 cp (ix2 r j))) = _
  rw [e4, e5, ec]
  rfl

end Cert.KernelIdeal.BlockValue

end
-- ==== Proof.ArrayValue.lean ====
/-
  From blocks to arrays, at the extended reals: after the run the kernel's two result arrays are the new hidden state
  and the new cell state of the specification, index by index.

  Grid point t = (i, j) writes back block (i, j) of each result: rows 256·i …, columns 256·j ….  What it stores at
  (r, c) inside the block is the specification at row 256·i + r, column 256·j + c, because each block it read is the
  matching restriction of its array: rows 256·i … of `[x | h_prev]`; for gate g, columns 2048·g + 256·j … of the fused
  weight (block column 8g + j) and of the bias row; block (i, j) of the old cell state.  The 16 × 8 blocks tile the
  4096 × 2048 arrays, so every index is written by exactly the point (row / 256, column / 256).
-/
import proofs.«163856_j61091614819044_1_alg».proof.Proof.KernelIdealFrame
import proofs.«163856_j61091614819044_1_alg».proof.Proof.BlockValue
import proofs.«163856_j61091614819044_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid, relative to the result windows' block (i, j) -/

theorem idx_out : ∀ t : Fin cfg0.N, win0_12.index t (0 : Fin 2) ≤ 15 ∧ win0_12.index t (1 : Fin 2) ≤ 7
    ∧ win0_13.index t (0 : Fin 2) = win0_12.index t (0 : Fin 2) ∧ win0_13.index t (1 : Fin 2) = win0_12.index t (1 : Fin 2) :=
  (by decide +kernel : ∀ t : Fin grid0.N, _)
theorem idx_x : ∀ t : Fin cfg0.N, win0_0.index t (0 : Fin 2) = win0_12.index t (0 : Fin 2) ∧ win0_0.index t (1 : Fin 2) = 0 :=
  (by decide +kernel : ∀ t : Fin grid0.N, _)
theorem idx_w0 : ∀ t : Fin cfg0.N, win0_1.index t (0 : Fin 2) = 0 ∧ win0_1.index t (1 : Fin 2) = 0 + win0_12.index t (1 : Fin 2) :=
  (by decide +kernel : ∀ t : Fin grid0.N, _)
theorem idx_b0 : ∀ t : Fin cfg0.N, win0_6.index t (0 : Fin 2) = 0 ∧ win0_6.index t (1 : Fin 2) = 0 + win0_12.index t (1 : Fin 2) :=
  (by decide +kernel : ∀ t : Fin grid0.N, _)
theorem idx_w1 : ∀ t : Fin cfg0.N, win0_2.index t (0 : Fin 2) = 0 ∧ win0_2.index t (1 : Fin 2) = 8 + win0_12.index t (1 : Fin 2) :=
  (by decide +kernel : ∀ t : Fin grid0.N, _)
theorem idx_b1 : ∀ t : Fin cfg0.N, win0_7.index t (0 : Fin 2) = 0 ∧ win0_7.index t (1 : Fin 2) = 8 + win0_12.index t (1 : Fin 2) :=
  (by decide +kernel : ∀ t : Fin grid0.N, _)
theorem idx_w2 : ∀ t : Fin cfg0.N, win0_3.index t (0 : Fin 2) = 0 ∧ win0_3.index t (1 : Fin 2) = 16 + win0_12.index t (1 : Fin 2) :=
  (by decide +kernel : ∀ t : Fin grid0.N, _)
theorem idx_b2 : ∀ t : Fin cfg0.N, win0_8.index t (0 : Fin 2) = 0 ∧ win0_8.index t (1 : Fin 2) = 16 + win0_12.index t (1 : Fin 2) :=
  (by decide +kernel : ∀ t : Fin grid0.N, _)
theorem idx_w3 : ∀ t : Fin cfg0.N, win0_4.index t (0 : Fin 2) = 0 ∧ win0_4.index t (1 : Fin 2) = 24 + win0_12.index t (1 : Fin 2) :=
  (by decide +kernel : ∀ t : Fin grid0.N, _)
theorem idx_b3 : ∀ t : Fin cfg0.N, win0_9.index t (0 : Fin 2) = 0 ∧ win0_9.index t (1 : Fin 2) = 24 + win0_12.index t (1 : Fin 2) :=
  (by decide +kernel : ∀ t : Fin grid0.N, _)
theorem idx_w4 : ∀ t : Fin cfg0.N, win0_5.index t (0 : Fin 2) = 0 ∧ win0_5.index t (1 : Fin 2) = 32 + win0_12.index t (1 : Fin 2) :=
  (by decide +kernel : ∀ t : Fin grid0.N, _)
theorem idx_b4 : ∀ t : Fin cfg0.N, win0_10.index t (0 : Fin 2) = 0 ∧ win0_10.index t (1 : Fin 2) = 32 + win0_12.index t (1 : Fin 2) :=
  (by decide +kernel : ∀ t : Fin grid0.N, _)
theorem idx_c : ∀ t : Fin cfg0.N, win0_11.index t (0 : Fin 2) = win0_12.index t (0 : Fin 2) ∧ win0_11.index t (1 : Fin 2) = win0_12.index t (1 : Fin 2) :=
  (by decide +kernel : ∀ t : Fin grid0.N, _)
/-- Every block (i, j) of the results is some point's. -/
theorem idx_onto : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])

/-- Row `r` of point `t`'s blocks is row `256·i + r` of the arrays, -/
def rowOf (t : Fin cfg0.N) (r : Fin 256) : Fin 4096 :=
  ⟨win0_12.index t (0 : Fin 2) * 256 + r.val, by have := (idx_out t).1; have := r.isLt; omega⟩
/-- and column `j` of its result blocks is hidden column `256·j + c`. -/
def colOf (t : Fin cfg0.N) (j : Fin 256) : Fin 2048 :=
  ⟨win0_12.index t (1 : Fin 2) * 256 + j.val, by have := (idx_out t).2.1; have := j.isLt; omega⟩

/-! ## The arrays the region finds -/

/-- The first host operation wrote the concatenation `[x | h_prev]`. -/
theorem V_main_v0 (c : Dev nD) : (V m c main_v0 : S4096x3072.Idx → EReal)
    = concatenate S4096x3072 1 [⟨S4096x1024, m ((c : Thread nD τ).loc main_arg0)⟩, ⟨S4096x2048, m ((c : Thread nD τ).loc main_arg1)⟩] concatenates_S4096x1024_S4096x2048_S4096x3072_d1 := by
  dsimp only [V, hostOps0]; after_results

/-- The second wrote the bias as one row. -/
theorem V_main_v1 (c : Dev nD) : (V m c main_v1 : S1x10240.Idx → EReal)
    = shapeCast S1x10240 (m ((c : Thread nD τ).loc main_arg4)) shapeCasts_S10240_S1x10240 := by
  dsimp only [V, hostOps0]; after_results; rfl

/-! ## Each block read is the matching restriction of its array -/

theorem xblk (c : Dev nD) (t : Fin cfg0.N) (r : Fin 256) (k : Fin 3072) :
    iblk m c 0 t (ix2 r k) = (V m c main_v0 : S4096x3072.Idx → EReal) (ix2 (rowOf t r) k) := by
  obtain ⟨e0, e1⟩ := idx_x t
  show V m c main_v0 (((cfg0.win 0).blk t).view.emb (ix2 r k)) = V m c main_v0 (ix2 (rowOf t r) k)
  refine congrArg (V m c main_v0) (funext fun a => Fin.ext ?_)
  match a with
  | ⟨0, _⟩ => show win0_0.index t (0 : Fin 2) * 256 + 1 * r.val = win0_12.index t (0 : Fin 2) * 256 + r.val; omega
  | ⟨1, _⟩ => show win0_0.index t (1 : Fin 2) * 3072 + 1 * k.val = k.val; omega

theorem wblk_0 (c : Dev nD) (t : Fin cfg0.N) (k : Fin 3072) (j : Fin 256) :
    iblk m c 1 t (ix2 k j) = (V m c main_arg3 : S3072x10240.Idx → EReal) (ix2 k (Cert.Xlstm.col 0 (colOf t j))) := by
  obtain ⟨e0, e1⟩ := idx_w0 t
  show V m c main_arg3 (((cfg0.win 1).blk t).view.emb (ix2 k j)) = V m c main_arg3 (ix2 k (Cert.Xlstm.col 0 (colOf t j)))
  refine congrArg (V m c main_arg3) (funext fun a => Fin.ext ?_)
  match a with
  | ⟨0, _⟩ => show win0_1.index t (0 : Fin 2) * 3072 + 1 * k.val = k.val; omega
  | ⟨1, _⟩ => show win0_1.index t (1 : Fin 2) * 256 + 1 * j.val = 0 * 2048 + (win0_12.index t (1 : Fin 2) * 256 + j.val); omega

theorem wblk_1 (c : Dev nD) (t : Fin cfg0.N) (k : Fin 3072) (j : Fin 256) :
    iblk m c 2 t (ix2 k j) = (V m c main_arg3 : S3072x10240.Idx → EReal) (ix2 k (Cert.Xlstm.col 1 (colOf t j))) := by
  obtain ⟨e0, e1⟩ := idx_w1 t
  show V m c main_arg3 (((cfg0.win 2).blk t).view.emb (ix2 k j)) = V m c main_arg3 (ix2 k (Cert.Xlstm.col 1 (colOf t j)))
  refine congrArg (V m c main_arg3) (funext fun a => Fin.ext ?_)
  match a with
  | ⟨0, _⟩ => show win0_2.index t (0 : Fin 2) * 3072 + 1 * k.val = k.val; omega
  | ⟨1, _⟩ => show win0_2.index t (1 : Fin 2) * 256 + 1 * j.val = 1 * 2048 + (win0_12.index t (1 : Fin 2) * 256 + j.val); omega

theorem wblk_2 (c : Dev nD) (t : Fin cfg0.N) (k : Fin 3072) (j : Fin 256) :
    iblk m c 3 t (ix2 k j) = (V m c main_arg3 : S3072x10240.Idx → EReal) (ix2 k (Cert.Xlstm.col 2 (colOf t j))) := by
  obtain ⟨e0, e1⟩ := idx_w2 t
  show V m c main_arg3 (((cfg0.win 3).blk t).view.emb (ix2 k j)) = V m c main_arg3 (ix2 k (Cert.Xlstm.col 2 (colOf t j)))
  refine congrArg (V m c main_arg3) (funext fun a => Fin.ext ?_)
  match a with
  | ⟨0, _⟩ => show win0_3.index t (0 : Fin 2) * 3072 + 1 * k.val = k.val; omega
  | ⟨1, _⟩ => show win0_3.index t (1 : Fin 2) * 256 + 1 * j.val = 2 * 2048 + (win0_12.index t (1 : Fin 2) * 256 + j.val); omega

theorem wblk_3 (c : Dev nD) (t : Fin cfg0.N) (k : Fin 3072) (j : Fin 256) :
    iblk m c 4 t (ix2 k j) = (V m c main_arg3 : S3072x10240.Idx → EReal) (ix2 k (Cert.Xlstm.col 3 (colOf t j))) := by
  obtain ⟨e0, e1⟩ := idx_w3 t
  show V m c main_arg3 (((cfg0.win 4).blk t).view.emb (ix2 k j)) = V m c main_arg3 (ix2 k (Cert.Xlstm.col 3 (colOf t j)))
  refine congrArg (V m c main_arg3) (funext fun a => Fin.ext ?_)
  match a with
  | ⟨0, _⟩ => show win0_4.index t (0 : Fin 2) * 3072 + 1 * k.val = k.val; omega
  | ⟨1, _⟩ => show win0_4.index t (1 : Fin 2) * 256 + 1 * j.val = 3 * 2048 + (win0_12.index t (1 : Fin 2) * 256 + j.val); omega

theorem wblk_4 (c : Dev nD) (t : Fin cfg0.N) (k : Fin 3072) (j : Fin 256) :
    iblk m c 5 t (ix2 k j) = (V m c main_arg3 : S3072x10240.Idx → EReal) (ix2 k (Cert.Xlstm.col 4 (colOf t j))) := by
  obtain ⟨e0, e1⟩ := idx_w4 t
  show V m c main_arg3 (((cfg0.win 5).blk t).view.emb (ix2 k j)) = V m c main_arg3 (ix2 k (Cert.Xlstm.col 4 (colOf t j)))
  refine congrArg (V m c main_arg3) (funext fun a => Fin.ext ?_)
  match a with
  | ⟨0, _⟩ => show win0_5.index t (0 : Fin 2) * 3072 + 1 * k.val = k.val; omega
  | ⟨1, _⟩ => show win0_5.index t (1 : Fin 2) * 256 + 1 * j.val = 4 * 2048 + (win0_12.index t (1 : Fin 2) * 256 + j.val); omega

theorem bblk_0 (c : Dev nD) (t : Fin cfg0.N) (j : Fin 256) :
    iblk m c 6 t (ix2 (0 : Fin 1) j) = (m ((c : Thread nD τ).loc main_arg4) : S10240.Idx → EReal) (ix1 (Cert.Xlstm.col 0 (colOf t j))) := by
  obtain ⟨e0, e1⟩ := idx_b0 t
  show (V m c main_v1 : S1x10240.Idx → EReal) (((cfg0.win 6).blk t).view.emb (ix2 (0 : Fin 1) j)) = _
  rw [V_main_v1]
  have e : ((cfg0.win 6).blk t).view.emb (ix2 (0 : Fin 1) j) = ix2 (0 : Fin 1) (Cert.Xlstm.col 0 (colOf t j)) := funext fun a => Fin.ext (by
    match a with
    | ⟨0, _⟩ => show win0_6.index t (0 : Fin 2) * 1 + 1 * 0 = 0; omega
    | ⟨1, _⟩ => show win0_6.index t (1 : Fin 2) * 256 + 1 * j.val = 0 * 2048 + (win0_12.index t (1 : Fin 2) * 256 + j.val); omega)
  rw [e]
  exact shapeCast_a_1a_apply _ _ _ _

theorem bblk_1 (c : Dev nD) (t : Fin cfg0.N) (j : Fin 256) :
    iblk m c 7 t (ix2 (0 : Fin 1) j) = (m ((c : Thread nD τ).loc main_arg4) : S10240.Idx → EReal) (ix1 (Cert.Xlstm.col 1 (colOf t j))) := by
  obtain ⟨e0, e1⟩ := idx_b1 t
  show (V m c main_v1 : S1x10240.Idx → EReal) (((cfg0.win 7).blk t).view.emb (ix2 (0 : Fin 1) j)) = _
  rw [V_main_v1]
  have e : ((cfg0.win 7).blk t).view.emb (ix2 (0 : Fin 1) j) = ix2 (0 : Fin 1) (Cert.Xlstm.col 1 (colOf t j)) := funext fun a => Fin.ext (by
    match a with
    | ⟨0, _⟩ => show win0_7.index t (0 : Fin 2) * 1 + 1 * 0 = 0; omega
    | ⟨1, _⟩ => show win0_7.index t (1 : Fin 2) * 256 + 1 * j.val = 1 * 2048 + (win0_12.index t (1 : Fin 2) * 256 + j.val); omega)
  rw [e]
  exact shapeCast_a_1a_apply _ _ _ _

theorem bblk_2 (c : Dev nD) (t : Fin cfg0.N) (j : Fin 256) :
    iblk m c 8 t (ix2 (0 : Fin 1) j) = (m ((c : Thread nD τ).loc main_arg4) : S10240.Idx → EReal) (ix1 (Cert.Xlstm.col 2 (colOf t j))) := by
  obtain ⟨e0, e1⟩ := idx_b2 t
  show (V m c main_v1 : S1x10240.Idx → EReal) (((cfg0.win 8).blk t).view.emb (ix2 (0 : Fin 1) j)) = _
  rw [V_main_v1]
  have e : ((cfg0.win 8).blk t).view.emb (ix2 (0 : Fin 1) j) = ix2 (0 : Fin 1) (Cert.Xlstm.col 2 (colOf t j)) := funext fun a => Fin.ext (by
    match a with
    | ⟨0, _⟩ => show win0_8.index t (0 : Fin 2) * 1 + 1 * 0 = 0; omega
    | ⟨1, _⟩ => show win0_8.index t (1 : Fin 2) * 256 + 1 * j.val = 2 * 2048 + (win0_12.index t (1 : Fin 2) * 256 + j.val); omega)
  rw [e]
  exact shapeCast_a_1a_apply _ _ _ _

theorem bblk_3 (c : Dev nD) (t : Fin cfg0.N) (j : Fin 256) :
    iblk m c 9 t (ix2 (0 : Fin 1) j) = (m ((c : Thread nD τ).loc main_arg4) : S10240.Idx → EReal) (ix1 (Cert.Xlstm.col 3 (colOf t j))) := by
  obtain ⟨e0, e1⟩ := idx_b3 t
  show (V m c main_v1 : S1x10240.Idx → EReal) (((cfg0.win 9).blk t).view.emb (ix2 (0 : Fin 1) j)) = _
  rw [V_main_v1]
  have e : ((cfg0.win 9).blk t).view.emb (ix2 (0 : Fin 1) j) = ix2 (0 : Fin 1) (Cert.Xlstm.col 3 (colOf t j)) := funext fun a => Fin.ext (by
    match a with
    | ⟨0, _⟩ => show win0_9.index t (0 : Fin 2) * 1 + 1 * 0 = 0; omega
    | ⟨1, _⟩ => show win0_9.index t (1 : Fin 2) * 256 + 1 * j.val = 3 * 2048 + (win0_12.index t (1 : Fin 2) * 256 + j.val); omega)
  rw [e]
  exact shapeCast_a_1a_apply _ _ _ _

theorem bblk_4 (c : Dev nD) (t : Fin cfg0.N) (j : Fin 256) :
    iblk m c 10 t (ix2 (0 : Fin 1) j) = (m ((c : Thread nD τ).loc main_arg4) : S10240.Idx → EReal) (ix1 (Cert.Xlstm.col 4 (colOf t j))) := by
  obtain ⟨e0, e1⟩ := idx_b4 t
  show (V m c main_v1 : S1x10240.Idx → EReal) (((cfg0.win 10).blk t).view.emb (ix2 (0 : Fin 1) j)) = _
  rw [V_main_v1]
  have e : ((cfg0.win 10).blk t).view.emb (ix2 (0 : Fin 1) j) = ix2 (0 : Fin 1) (Cert.Xlstm.col 4 (colOf t j)) := funext fun a => Fin.ext (by
    match a with
    | ⟨0, _⟩ => show win0_10.index t (0 : Fin 2) * 1 + 1 * 0 = 0; omega
    | ⟨1, _⟩ => show win0_10.index t (1 : Fin 2) * 256 + 1 * j.val = 4 * 2048 + (win0_12.index t (1 : Fin 2) * 256 + j.val); omega)
  rw [e]
  exact shapeCast_a_1a_apply _ _ _ _

theorem cblk (c : Dev nD) (t : Fin cfg0.N) (r j : Fin 256) :
    iblk m c 11 t (ix2 r j) = (V m c main_arg2 : S4096x2048.Idx → EReal) (ix2 (rowOf t r) (colOf t j)) := by
  obtain ⟨e0, e1⟩ := idx_c t
  show V m c main_arg2 (((cfg0.win 11).blk t).view.emb (ix2 r j)) = V m c main_arg2 (ix2 (rowOf t r) (colOf t j))
  refine congrArg (V m c main_arg2) (funext fun a => Fin.ext ?_)
  match a with
  | ⟨0, _⟩ => show win0_11.index t (0 : Fin 2) * 256 + 1 * r.val = win0_12.index t (0 : Fin 2) * 256 + r.val; omega
  | ⟨1, _⟩ => show win0_11.index t (1 : Fin 2) * 256 + 1 * j.val = win0_12.index t (1 : Fin 2) * 256 + j.val; omega

/-- Where the result windows' blocks sit in their arrays. -/
theorem emb_12 (t : Fin cfg0.N) (r j : Fin 256) : ((cfg0.win 12).blk t).view.emb (ix2 r j) = ix2 (rowOf t r) (colOf t j) := funext fun a => Fin.ext (by
  match a with
  | ⟨0, _⟩ => show win0_12.index t (0 : Fin 2) * 256 + 1 * r.val = win0_12.index t (0 : Fin 2) * 256 + r.val; omega
  | ⟨1, _⟩ => show win0_12.index t (1 : Fin 2) * 256 + 1 * j.val = win0_12.index t (1 : Fin 2) * 256 + j.val; omega)
theorem emb_13 (t : Fin cfg0.N) (r j : Fin 256) : ((cfg0.win 13).blk t).view.emb (ix2 r j) = ix2 (rowOf t r) (colOf t j) := funext fun a => Fin.ext (by
  obtain ⟨-, -, e0, e1⟩ := idx_out t
  match a with
  | ⟨0, _⟩ => show win0_13.index t (0 : Fin 2) * 256 + 1 * r.val = win0_12.index t (0 : Fin 2) * 256 + r.val; omega
  | ⟨1, _⟩ => show win0_13.index t (1 : Fin 2) * 256 + 1 * j.val = win0_12.index t (1 : Fin 2) * 256 + j.val; omega)

/-! ## What a point writes back is its block of the specification -/

theorem flushedH (c : Dev nD) (t : Fin cfg0.N) :
    (dats m 0 c).flushed 12 t = ((cfg0.win 12).blk t).view.read (Elt Ideal) (Cert.Xlstm.hiddenArr (V m c main_v0) (V m c main_arg3) (m ((c : Thread nD τ).loc main_arg4)) (V m c main_arg2)) := by
  show (cfg0.win 12).cut (grid0.coords t) ((dats m 0 c).after 12 t) = _
  rw [after_12]
  unfold outH
  rw [View.canon_unit_zero hz]
  simp only [View.ld_unit_zero (S := S256x3072) hz, View.ld_unit_zero (S := S3072x256) hz, View.ld_unit_zero (S := S1x256) hz, View.ld_unit_zero (S := S256x256) hz]
  funext y
  obtain ⟨r, j, rfl⟩ : ∃ (r : Fin 256) (j : Fin 256), y = ix2 r j := ⟨y 0, y 1, eq_ix2 y⟩
  show BlockValue.hiddenBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
    = Cert.Xlstm.hiddenArr (V m c main_v0) (V m c main_arg3) (m ((c : Thread nD τ).loc main_arg4)) (V m c main_arg2) (((cfg0.win 12).blk t).view.emb (ix2 r j))
  rw [emb_12]
  exact BlockValue.hiddenBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_arg3) (m ((c : Thread nD τ).loc main_arg4)) (V m c main_arg2) (rowOf t) (colOf t) (xblk m c t) (wblk_0 m c t) (wblk_1 m c t) (wblk_2 m c t) (wblk_3 m c t) (wblk_4 m c t) (bblk_0 m c t) (bblk_1 m c t) (bblk_2 m c t) (bblk_3 m c t) (bblk_4 m c t) (cblk m c t) r j

theorem flushedC (c : Dev nD) (t : Fin cfg0.N) :
    (dats m 0 c).flushed 13 t = ((cfg0.win 13).blk t).view.read (Elt Ideal) (Cert.Xlstm.cellArr (V m c main_v0) (V m c main_arg3) (m ((c : Thread nD τ).loc main_arg4)) (V m c main_arg2)) := by
  show (cfg0.win 13).cut (grid0.coords t) ((dats m 0 c).after 13 t) = _
  rw [after_13]
  unfold outC
  rw [View.canon_unit_zero hz]
  simp only [View.ld_unit_zero (S := S256x3072) hz, View.ld_unit_zero (S := S3072x256) hz, View.ld_unit_zero (S := S1x256) hz, View.ld_unit_zero (S := S256x256) hz]
  funext y
  obtain ⟨r, j, rfl⟩ : ∃ (r : Fin 256) (j : Fin 256), y = ix2 r j := ⟨y 0, y 1, eq_ix2 y⟩
  show BlockValue.cellBlk (iblk m c 0 t) (iblk m c 1 t) (iblk m c 2 t) (iblk m c 3 t) (iblk m c 6 t) (iblk m c 7 t) (iblk m c 8 t) (iblk m c 11 t) (ix2 r j)
    = Cert.Xlstm.cellArr (V m c main_v0) (V m c main_arg3) (m ((c : Thread nD τ).loc main_arg4)) (V m c main_arg2) (((cfg0.win 13).blk t).view.emb (ix2 r j))
  rw [emb_13]
  exact BlockValue.cellBlk_apply (iblk m c 0 t) (iblk m c 1 t) (iblk m c 2 t) (iblk m c 3 t) (iblk m c 6 t) (iblk m c 7 t) (iblk m c 8 t) (iblk m c 11 t) (V m c main_v0) (V m c main_arg3) (m ((c : Thread nD τ).loc main_arg4)) (V m c main_arg2) (rowOf t) (colOf t) (xblk m c t) (wblk_0 m c t) (wblk_1 m c t) (wblk_2 m c t) (bblk_0 m c t) (bblk_1 m c t) (bblk_2 m c t) (cblk m c t) r j

/-! ## The blocks tile the result arrays -/

theorem mem_blk12 (t : Fin cfg0.N) (i : S4096x2048.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v2_0).slice (win0_12.rect t)).set ↔ _
  rw [View.set_slice_whole, Rect.mem_set_unit]
  exact Iff.rfl
theorem mem_blk13 (t : Fin cfg0.N) (i : S4096x2048.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v2_1).slice (win0_13.rect t)).set ↔ _
  rw [View.set_slice_whole, Rect.mem_set_unit]
  exact Iff.rfl

/-- Index (p, q) is written by the point whose block is (p / 256, q / 256). -/
theorem cover12 (i : S4096x2048.Idx) : ∃ t : Fin cfg0.N, (cfg0.win 12).flush t = true ∧ i ∈ ((cfg0.win 12).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_12.index t (0 : Fin 2) = (i 0).val / 256 := congrFun ht 0
  have q1 : win0_12.index t (1 : Fin 2) = (i 1).val / 256 := congrFun ht 1
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 256 ≤ (i 1).val ∧ (i 1).val < win0_12.index t (1 : Fin 2) * 256 + 256; omega

theorem cover13 (i : S4096x2048.Idx) : ∃ t : Fin cfg0.N, (cfg0.win 13).flush t = true ∧ i ∈ ((cfg0.win 13).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  obtain ⟨-, -, e0, e1⟩ := idx_out t
  have q0 : win0_12.index t (0 : Fin 2) = (i 0).val / 256 := congrFun ht 0
  have q1 : win0_12.index t (1 : Fin 2) = (i 1).val / 256 := congrFun ht 1
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 256 ≤ (i 1).val ∧ (i 1).val < win0_13.index t (1 : Fin 2) * 256 + 256; omega

/-! ## The result arrays after the run -/

theorem finalH (c : Dev nD) : (dats m 0 c).arrAt 12 cfg0.N = Cert.Xlstm.hiddenArr (concatenate S4096x3072 1 [⟨S4096x1024, m ((c : Thread nD τ).loc main_arg0)⟩, ⟨S4096x2048, m ((c : Thread nD τ).loc main_arg1)⟩] concatenates_S4096x1024_S4096x2048_S4096x3072_d1) (m ((c : Thread nD τ).loc main_arg3)) (m ((c : Thread nD τ).loc main_arg4)) (m ((c : Thread nD τ).loc main_arg2)) := by
  rw [(dats m 0 c).arrAt_eq_of_cover 12 (Cert.Xlstm.hiddenArr (V m c main_v0) (V m c main_arg3) (m ((c : Thread nD τ).loc main_arg4)) (V m c main_arg2)) (fun t _ => flushedH m c t) cover12,
    V_main_v0, V_main_arg3, V_main_arg2]

theorem finalC (c : Dev nD) : (dats m 0 c).arrAt 13 cfg0.N = Cert.Xlstm.cellArr (concatenate S4096x3072 1 [⟨S4096x1024, m ((c : Thread nD τ).loc main_arg0)⟩, ⟨S4096x2048, m ((c : Thread nD τ).loc main_arg1)⟩] concatenates_S4096x1024_S4096x2048_S4096x3072_d1) (m ((c : Thread nD τ).loc main_arg3)) (m ((c : Thread nD τ).loc main_arg4)) (m ((c : Thread nD τ).loc main_arg2)) := by
  rw [(dats m 0 c).arrAt_eq_of_cover 13 (Cert.Xlstm.cellArr (V m c main_v0) (V m c main_arg3) (m ((c : Thread nD τ).loc main_arg4)) (V m c main_arg2)) (fun t _ => flushedC m c t) cover13,
    V_main_v0, V_main_arg3, V_main_arg2]

/-- The run, read: both results at the specification of the launch contents, the arguments unchanged. -/
theorem run : θ_run defs (onTc (τ := τ) (main (F := Ideal))) ⟨m, fun _ => 0, ρ⟩ fun r => ∀ c : Dev nD,
      r.2.mem ((c.tc : Thread nD τ).loc main_v2_0) = Cert.Xlstm.hiddenArr (concatenate S4096x3072 1 [⟨S4096x1024, m ((c : Thread nD τ).loc main_arg0)⟩, ⟨S4096x2048, m ((c : Thread nD τ).loc main_arg1)⟩] concatenates_S4096x1024_S4096x2048_S4096x3072_d1) (m ((c : Thread nD τ).loc main_arg3)) (m ((c : Thread nD τ).loc main_arg4)) (m ((c : Thread nD τ).loc main_arg2))
      ∧ r.2.mem ((c.tc : Thread nD τ).loc main_v2_1) = Cert.Xlstm.cellArr (concatenate S4096x3072 1 [⟨S4096x1024, m ((c : Thread nD τ).loc main_arg0)⟩, ⟨S4096x2048, m ((c : Thread nD τ).loc main_arg1)⟩] concatenates_S4096x1024_S4096x2048_S4096x3072_d1) (m ((c : Thread nD τ).loc main_arg3)) (m ((c : Thread nD τ).loc main_arg4)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).1 12).trans (finalH m c),
      ((h c).1 13).trans (finalC m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 11).trans (((dats m 0 c).arrAt_in 11 rfl _).trans ((A_eq m c 11).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.KernelIdeal.ArrayValue

end
-- ==== Proof.RefValue.lean ====
/-
  The reference is the specification.

  The reference program forms `comb = [x | h_prev]`, the biased product `z = comb · W + b` (4096 × 10240), cuts `z` into
  five column slices of width 2048 (gate `g` occupies columns `2048·g … 2048·g + 2047`), and combines them pointwise:
  each sigmoid is spelt `1 / (1 + exp (−v))`, the new cell state is `σ(z₀)·c_prev + σ(z₁)·tanh(z₂)`, the gated state is
  `s = σ(z₃)·tanh(c')`, and the new hidden state is `σ(z₄)·exp(s) + (1 − σ(z₄))·s`.

  Read at row `p` and hidden column `q`, slice `g` of `z` is `Σ_k comb[p,k] · W[k, 2048·g + q] + b[2048·g + q]`, the
  specification's pre-activation; the spelt sigmoid is the logistic function by its definition once the float word of one is
  read as the extended real one; and the remaining products and sums are in the specification's own order, so each stage is
  the specification's term on the nose.  The one of `1 − σ` stays as its float word, exactly as the specification keeps it.
-/
import proofs.«163856_j61091614819044_1_alg».proof.Proof.Gen.ReferenceIdeal.Read
import proofs.«163856_j61091614819044_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The biased product `z = comb · W + b` read at any index whose row is `p` and whose column is column `q` of
    gate `g`'s slice: the contraction index runs over the shared axis, the bias is read at the column alone. -/
theorem z_at (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (j : S4096x10240.Idx) (g : Fin 5) (p : Fin 4096) (q : Fin 2048)
    (h0 : (j 0).val = p.val) (h1 : (j 1).val = g.val * 2048 + q.val) :
    val_main_v4 (F := Ideal) x0 x1 x3 x4 j = Cert.Xlstm.pre (val_main_v0 (F := Ideal) x0 x1) x3 x4 g p q := by
  rw [val_main_v4_apply, val_main_v1_apply, val_main_v3_apply, val_main_v2_apply]
  generalize val_main_v0 (F := Ideal) x0 x1 = comb
  have el : ∀ k : Fin 3072, lidx_main_v1 j k = ix2 p k := fun k => funext fun a => Fin.ext (by
    match a with
    | ⟨0, _⟩ => exact h0
    | ⟨1, _⟩ => rfl)
  have er : ∀ k : Fin 3072, ridx_main_v1 j k = ix2 k (Cert.Xlstm.col g q) := fun k => funext fun a => Fin.ext (by
    match a with
    | ⟨0, _⟩ => rfl
    | ⟨1, _⟩ => exact h1)
  have eb : idx_main_v2 (idx_main_v3 j) = ix1 (Cert.Xlstm.col g q) := funext fun a => Fin.ext (by
    match a with
    | ⟨0, _⟩ => exact h1)
  rw [eb, Ideal.addf_def]
  unfold Cert.Xlstm.pre
  refine congrArg (· + x4 (ix1 (Cert.Xlstm.col g q))) (Finset.sum_congr rfl fun k _ => ?_)
  rw [el k, er k]

/-- Slice 0 of `z` along the columns is gate 0's pre-activation. -/
theorem pre_v5 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v5 (F := Ideal) x0 x1 x3 x4 (ix2 p q) = Cert.Xlstm.pre (val_main_v0 (F := Ideal) x0 x1) x3 x4 0 p q := by
  rw [val_main_v5_apply]
  exact z_at x0 x1 x3 x4 _ 0 p q rfl (by show q.val = 0 * 2048 + q.val; omega)

/-- Slice 1 of `z` along the columns is gate 1's pre-activation. -/
theorem pre_v6 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v6 (F := Ideal) x0 x1 x3 x4 (ix2 p q) = Cert.Xlstm.pre (val_main_v0 (F := Ideal) x0 x1) x3 x4 1 p q := by
  rw [val_main_v6_apply]
  exact z_at x0 x1 x3 x4 _ 1 p q rfl (by show 2048 + q.val = 1 * 2048 + q.val; omega)

/-- Slice 2 of `z` along the columns is gate 2's pre-activation. -/
theorem pre_v7 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v7 (F := Ideal) x0 x1 x3 x4 (ix2 p q) = Cert.Xlstm.pre (val_main_v0 (F := Ideal) x0 x1) x3 x4 2 p q := by
  rw [val_main_v7_apply]
  exact z_at x0 x1 x3 x4 _ 2 p q rfl (by show 4096 + q.val = 2 * 2048 + q.val; omega)

/-- Slice 3 of `z` along the columns is gate 3's pre-activation. -/
theorem pre_v8 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v8 (F := Ideal) x0 x1 x3 x4 (ix2 p q) = Cert.Xlstm.pre (val_main_v0 (F := Ideal) x0 x1) x3 x4 3 p q := by
  rw [val_main_v8_apply]
  exact z_at x0 x1 x3 x4 _ 3 p q rfl (by show 6144 + q.val = 3 * 2048 + q.val; omega)

/-- Slice 4 of `z` along the columns is gate 4's pre-activation. -/
theorem pre_v9 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v9 (F := Ideal) x0 x1 x3 x4 (ix2 p q) = Cert.Xlstm.pre (val_main_v0 (F := Ideal) x0 x1) x3 x4 4 p q := by
  rw [val_main_v9_apply]
  exact z_at x0 x1 x3 x4 _ 4 p q rfl (by show 8192 + q.val = 4 * 2048 + q.val; omega)

/-- The program's sigmoid, `1 / (1 + exp (−v))` with both ones spelt as the float word of one, is the logistic function:
    the word is the extended real one, and the quotient is the logistic function's definition. -/
theorem sigmoid_eq (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = Ideal.logistic v := by
  simp only [Ideal.hostDivf_def, Ideal.addf_def, Ideal.hostUnary_exp_def, Ideal.hostNegf_def, Ideal.negf_def, Ideal.ofBits_def,
    Ideal.ofBits_one_f32]
  rfl

/-- The forget gate: the sigmoid of slice 0. -/
theorem sig_v15 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v15 (F := Ideal) x0 x1 x3 x4 (ix2 p q) = Ideal.logistic (Cert.Xlstm.pre (val_main_v0 (F := Ideal) x0 x1) x3 x4 0 p q) := by
  rw [val_main_v15_apply, val_main_v14_apply, val_main_cst_0_apply, val_main_v13_apply, val_main_v12_apply, val_main_cst_apply,
    val_main_v11_apply, val_main_v10_apply, pre_v5, sigmoid_eq]

/-- The input gate: the sigmoid of slice 1. -/
theorem sig_v21 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v21 (F := Ideal) x0 x1 x3 x4 (ix2 p q) = Ideal.logistic (Cert.Xlstm.pre (val_main_v0 (F := Ideal) x0 x1) x3 x4 1 p q) := by
  rw [val_main_v21_apply, val_main_v20_apply, val_main_cst_2_apply, val_main_v19_apply, val_main_v18_apply, val_main_cst_1_apply,
    val_main_v17_apply, val_main_v16_apply, pre_v6, sigmoid_eq]

/-- The candidate: the hyperbolic tangent of slice 2. -/
theorem tanh_v22 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v22 (F := Ideal) x0 x1 x3 x4 (ix2 p q) = Ideal.tanh (Cert.Xlstm.pre (val_main_v0 (F := Ideal) x0 x1) x3 x4 2 p q) := by
  rw [val_main_v22_apply, pre_v7, Ideal.hostUnary_tanh_def]

/-- The output gate: the sigmoid of slice 3. -/
theorem sig_v28 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v28 (F := Ideal) x0 x1 x3 x4 (ix2 p q) = Ideal.logistic (Cert.Xlstm.pre (val_main_v0 (F := Ideal) x0 x1) x3 x4 3 p q) := by
  rw [val_main_v28_apply, val_main_v27_apply, val_main_cst_4_apply, val_main_v26_apply, val_main_v25_apply, val_main_cst_3_apply,
    val_main_v24_apply, val_main_v23_apply, pre_v8, sigmoid_eq]

/-- The exponential gate: the sigmoid of slice 4. -/
theorem sig_v34 (x0 : (⟨S4096x1024, .f32⟩ : BufTy).Contents (Elt Ideal)) (x1 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v34 (F := Ideal) x0 x1 x3 x4 (ix2 p q) = Ideal.logistic (Cert.Xlstm.pre (val_main_v0 (F := Ideal) x0 x1) x3 x4 4 p q) := by
  rw [val_main_v34_apply, val_main_v33_apply, val_main_cst_6_apply, val_main_v32_apply, val_main_v31_apply, val_main_cst_5_apply,
    val_main_v30_apply, val_main_v29_apply, pre_v9, sigmoid_eq]

/-- The new cell state at `(p, q)`: forget gate times the old cell state plus input gate times the candidate. -/
theorem cell_at (x0 : (⟨S4096x1024, .f32⟩ : BufTy).Contents (Elt Ideal)) (x1 x2 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v37 (F := Ideal) x0 x1 x2 x3 x4 (ix2 p q) = Cert.Xlstm.cellAt (val_main_v0 (F := Ideal) x0 x1) x3 x4 x2 p q := by
  rw [val_main_v37_apply, val_main_v35_apply, val_main_v36_apply, sig_v15, sig_v21, tanh_v22, Ideal.addf_def, Ideal.mulf_def, Ideal.mulf_def]
  rfl

/-- The output-gated cell state at `(p, q)`. -/
theorem gated_at (x0 : (⟨S4096x1024, .f32⟩ : BufTy).Contents (Elt Ideal)) (x1 x2 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v39 (F := Ideal) x0 x1 x2 x3 x4 (ix2 p q) = Cert.Xlstm.gatedAt (val_main_v0 (F := Ideal) x0 x1) x3 x4 x2 p q := by
  rw [val_main_v39_apply, val_main_v38_apply, sig_v28, cell_at, Ideal.mulf_def, Ideal.hostUnary_tanh_def]
  rfl

/-- The new hidden state at `(p, q)`; the one of `1 − σ` stays the float word, as the specification keeps it. -/
theorem hidden_at (x0 : (⟨S4096x1024, .f32⟩ : BufTy).Contents (Elt Ideal)) (x1 x2 : (⟨S4096x2048, .f32⟩ : BufTy).Contents (Elt Ideal))
    (x3 : (⟨S3072x10240, .f32⟩ : BufTy).Contents (Elt Ideal)) (x4 : (⟨S10240, .f32⟩ : BufTy).Contents (Elt Ideal))
    (p : Fin 4096) (q : Fin 2048) :
    val_main_v45 (F := Ideal) x0 x1 x2 x3 x4 (ix2 p q) = Cert.Xlstm.hiddenAt (val_main_v0 (F := Ideal) x0 x1) x3 x4 x2 p q := by
  rw [val_main_v45_apply, val_main_v41_apply, val_main_v44_apply, val_main_v43_apply, val_main_v42_apply, val_main_cst_7_apply,
    val_main_v40_apply, sig_v34, gated_at, Ideal.addf_def, Ideal.mulf_def, Ideal.mulf_def, Ideal.subf_def, Ideal.hostUnary_exp_def,
    Ideal.ofBits_def]
  rfl

/-- The reference's new cell state is the specification's, as whole arrays. -/
theorem ref_cell (x0 : (⟨S4096x1024, .f32⟩ : BufTy).Contents (Elt Ideal)) (x1 x2 : (⟨S4096x2048, .f32⟩ : BufTy).Contents (Elt Ideal))
    (x3 : (⟨S3072x10240, .f32⟩ : BufTy).Contents (Elt Ideal)) (x4 : (⟨S10240, .f32⟩ : BufTy).Contents (Elt Ideal)) :
    val_main_v37 (F := Ideal) x0 x1 x2 x3 x4 = Cert.Xlstm.cellArr (val_main_v0 (F := Ideal) x0 x1) x3 x4 x2 := by
  funext i
  obtain ⟨p, q, rfl⟩ : ∃ p q, i = ix2 p q := ⟨i 0, i 1, eq_ix2 i⟩
  rw [Cert.Xlstm.cellArr_apply]
  exact cell_at x0 x1 x2 x3 x4 p q

/-- The reference's new hidden state is the specification's, as whole arrays. -/
theorem ref_hidden (x0 : (⟨S4096x1024, .f32⟩ : BufTy).Contents (Elt Ideal)) (x1 x2 : (⟨S4096x2048, .f32⟩ : BufTy).Contents (Elt Ideal))
    (x3 : (⟨S3072x10240, .f32⟩ : BufTy).Contents (Elt Ideal)) (x4 : (⟨S10240, .f32⟩ : BufTy).Contents (Elt Ideal)) :
    val_main_v45 (F := Ideal) x0 x1 x2 x3 x4 = Cert.Xlstm.hiddenArr (val_main_v0 (F := Ideal) x0 x1) x3 x4 x2 := by
  funext i
  obtain ⟨p, q, rfl⟩ : ∃ p q, i = ix2 p q := ⟨i 0, i 1, eq_ix2 i⟩
  rw [Cert.Xlstm.hiddenArr_apply]
  exact hidden_at x0 x1 x2 x3 x4 p q

end Cert.ReferenceIdeal.RefValue
end
-- ==== Proof.lean ====
/-
  One step of an xLSTM cell with five fused gates: a Pallas kernel against its jnp reference, equal over the extended reals.

  Both programs compute, with comb = [x | h_prev] (4096 × 3072), the fused weight W (3072 × 10240) and bias b,
      pre g = comb · W[:, 2048g : 2048(g+1)] + b[2048g : 2048(g+1)]          (g = 0 … 4),
      c' = σ(pre 0) · c_prev + σ(pre 1) · tanh(pre 2),
      s  = σ(pre 3) · tanh(c'),      h' = σ(pre 4) · exp(s) + (1 − σ(pre 4)) · s,
  and return (h', c')  (Proof/Spec.lean states this once, index by index).

  The reference does it with one 4096 × 10240 product, five column slices, and σ spelt 1 / (1 + e^(−x)); at the
  extended reals that spelling IS the logistic function (Proof/RefValue.lean).  The kernel tiles the result in
  16 × 8 blocks of 256 × 256; at block (i, j) it multiplies rows 256i… of comb (rounded to bf16 — the identity at
  the reals) by the five 3072 × 256 column blocks 8g + j of W, adds the bias blocks and applies the same pointwise
  chain (Proof/BlockValue.lean: one block at an index is the specification there); the blocks tile the arrays
  (Proof/ArrayValue.lean).  No algebraic law beyond reading both sums over the same index set is needed, so the
  finiteness precondition is never opened.

  The frames: the kernel program terminates without fault and leaves its arguments unchanged at any float instance
  (Proof/KernelIdealFrame.lean, and the same text for the word-level program, Proof/KernelFrame.lean); the fused
  weight and the bias row are each read through five windows, which share the array by a five-way split of its
  full share.  The reference's frame is its run with the results dropped.  The ideal pass rewrote nothing, so
  `preserves` is trivial.
-/
import proofs.«163856_j61091614819044_1_alg».proof.Defs
import proofs.«163856_j61091614819044_1_alg».proof.Proof.Gen.Kernel
import proofs.«163856_j61091614819044_1_alg».proof.Proof.Gen.KernelIdeal
import proofs.«163856_j61091614819044_1_alg».proof.Proof.Gen.ReferenceIdeal
import proofs.«163856_j61091614819044_1_alg».proof.Proof.Gen.Pre_finite_inputs
import proofs.«163856_j61091614819044_1_alg».proof.Proof.Gen.ReferenceIdeal.Run
import proofs.«163856_j61091614819044_1_alg».proof.Proof.Gen.ReferenceIdeal.Read
import proofs.«163856_j61091614819044_1_alg».proof.Proof.KernelFrame
import proofs.«163856_j61091614819044_1_alg».proof.Proof.KernelIdealFrame
import proofs.«163856_j61091614819044_1_alg».proof.Proof.ArrayValue
import proofs.«163856_j61091614819044_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the new hidden state and the new cell state of the specification, at the same
    arguments: the kernel's blocks tile the specification's arrays, and the reference's stages compose to it. -/
theorem algebraic : Cert.algebraic_KernelIdeal_ReferenceIdeal := by
  intro m ρ m' ρ' _ hagree
  refine ⟨fun c => Cert.Xlstm.hiddenArr (concatenate Cert.KernelIdeal.S4096x3072 1 [⟨Cert.KernelIdeal.S4096x1024, m ((c.tc : Thread Cert.KernelIdeal.nD Cert.KernelIdeal.τ).loc Cert.KernelIdeal.main_arg0)⟩, ⟨Cert.KernelIdeal.S4096x2048, m ((c.tc : Thread Cert.KernelIdeal.nD Cert.KernelIdeal.τ).loc Cert.KernelIdeal.main_arg1)⟩] Cert.KernelIdeal.Facts₀.concatenates_S4096x1024_S4096x2048_S4096x3072_d1) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)),
    fun c => Cert.Xlstm.cellArr (concatenate Cert.KernelIdeal.S4096x3072 1 [⟨Cert.KernelIdeal.S4096x1024, m ((c.tc : Thread Cert.KernelIdeal.nD Cert.KernelIdeal.τ).loc Cert.KernelIdeal.main_arg0)⟩, ⟨Cert.KernelIdeal.S4096x2048, m ((c.tc : Thread Cert.KernelIdeal.nD Cert.KernelIdeal.τ).loc Cert.KernelIdeal.main_arg1)⟩] Cert.KernelIdeal.Facts₀.concatenates_S4096x1024_S4096x2048_S4096x3072_d1) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v45_eq, Cert.ReferenceIdeal.RefValue.ref_hidden,
      (hagree c).1, (hagree c).2.1, (hagree c).2.2.1, (hagree c).2.2.2.1, (hagree c).2.2.2.2]
    rfl
  · rw [(h c).2.1, Cert.ReferenceIdeal.Read.val_main_v37_eq, Cert.ReferenceIdeal.RefValue.ref_cell,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
